-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x3 : Shape := ⟨2, ![1000000, 3]⟩
abbrev S8192x12 : Shape := ⟨2, ![8192, 12]⟩
abbrev S1000000 : Shape := ⟨1, ![1000000]⟩
abbrev S64x16 : Shape := ⟨2, ![64, 16]⟩
abbrev S64 : Shape := ⟨1, ![64]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S8192x12 : S_.BroadcastsInDim S8192x12 (![] : Fin 0 → Fin S8192x12.rank)
  reducesTo_S8192x12_S_d0_1 : S8192x12.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg3 : IVec S1000000 32) (main_v33 : IVec S_ 1) : IVec S_ 1 :=
  let main_c_12 : IVec S_ 32 := constantI S_ 32 0#32
  let main_v34 : IVec S1000000 32 := broadcastInDim S1000000 ![] bcast_S_S1000000 main_c_12
  let main_v35 : IVec S1000000 1 := cmpi .sge main_arg3 main_v34
  let main_c_13 : IVec S_ 32 := constantI S_ 32 8192#32
  let main_v36 : IVec S1000000 32 := broadcastInDim S1000000 ![] bcast_S_S1000000 main_c_13
  let main_v37 : IVec S1000000 1 := cmpi .slt main_arg3 main_v36
  let main_v38 : IVec S1000000 1 := andi main_v35 main_v37
  let main_c_14 : IVec S_ 1 := constantI S_ 1 1#1
  let main_v39 : IVec S_ 1 := (fun x v => Host.reduce IntOp.andi x v reducesTo_S1000000_S_d0 h_S_) main_v38 main_c_14
  let main_v40 : IVec S_ 1 := andi main_v33 main_v39
  main_v40

def fn_part1 {F : FTy → Type} [FloatOps F] (main_arg3 : IVec S1000000 32) (main_arg5 : FVec F S64 .f32) (main_arg6 : FVec F S64x64 .f32) (main_arg7 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_v33

def fn {F : FTy → Type} [FloatOps F] (main_arg0 : FVec F S1000000x64 .f32) (main_arg1 : FVec F S1000000x3 .f32) (main_arg2 : FVec F S8192x12 .f32) (main_arg3 : IVec S1000000 32) (main_arg4 : FVec F S64x16 .f32) (main_arg5 : FVec F S64 .f32) (main_arg6 : FVec F S64x64 .f32) (main_arg7 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S8192x12 .f32 := Host.absf main_arg2
  let main_cst_2 : FVec F S_ .f32 := constant S_ .f32 0x7F800000#32
  let main_v10 : FVec F S8192x12 .f32 := broadcastInDim S8192x12 ![] bcast_S_S8192x12 main_cst_2
  let main_v11 : IVec S8192x12 1 := cmpf .olt main_v9 main_v10
  let main_c_3 : IVec S_ 1 := constantI S_ 1 1#1
  let main_v12 : IVec S_ 1 := (fun x v => Host.reduce IntOp.andi x v reducesTo_S8192x12_S_d0_1 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg3 main_arg5 main_arg6 main_arg7 main_v13 main_v16
-- ==== Kernel.lean ====
abbrev S1000000x64 : Shape := ⟨2, ![1000000, 64]⟩
abbrev S1000000x3 : Shape := ⟨2, ![1000000, 3]⟩
abbrev S8192x12 : Shape := ⟨2, ![8192, 12]⟩
abbrev S1000000 : Shape := ⟨1, ![1000000]⟩
abbrev S64x16 : Shape := ⟨2, ![64, 16]⟩
abbrev S64 : Shape := ⟨1, ![64]⟩
abbrev S64x64 : Shape := ⟨2, ![64, 64]⟩
abbrev S1000000x1 : Shape := ⟨2, ![1000000, 1]⟩
abbrev S16x64 : Shape := ⟨2, ![16, 64]⟩
abbrev S4000x3 : Shape := ⟨2, ![4000, 3]⟩
abbrev S4000x1 : Shape := ⟨2, ![4000, 1]⟩
abbrev S4000x64 : Shape := ⟨2, ![4000, 64]⟩
abbrev S4000x12 : Shape := ⟨2, ![4000, 12]⟩
abbrev S1x256 : Shape := ⟨2, ![1, 256]⟩
abbrev S4000x256 : Shape := ⟨2, ![4000, 256]⟩
abbrev S256x12 : Shape := ⟨2, ![256, 12]⟩
abbrev S4000 : Shape := ⟨1, ![4000]⟩
abbrev S4000x16 : Shape := ⟨2, ![4000, 16]⟩
abbrev S1x64 : Shape := ⟨2, ![1, 64]⟩

abbrev nBuf : Space → Nat
  | .hbm => 12
  | .vmem => 11
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S8192x12, .f32⟩
  | .hbm, ⟨3, _⟩ => ⟨S1000000, .i32⟩
  | .hbm, ⟨4, _⟩ => ⟨S64x16, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1000000x1, .i32⟩
  | .hbm, ⟨9, _⟩ => ⟨S16x64, .f32⟩
  | .hbm, ⟨10, _⟩ => ⟨S64x64, .f32⟩
  | .hbm, ⟨11, _⟩ => ⟨S1000000x64, .f32⟩
  | .local _ .vmem, ⟨0, _⟩ => ⟨S4000x3, .f32⟩
  | .local _ .vmem, ⟨1, _⟩ => ⟨S4000x3, .f32⟩
  | .local _ .vmem, ⟨2, _⟩ => ⟨S4000x1, .i32⟩
  | .local _ .vmem, ⟨3, _⟩ => ⟨S4000x1, .i32⟩
  | .local _ .vmem, ⟨4, _⟩ => ⟨S8192x12, .f32⟩
  | .local _ .vmem, ⟨5, _⟩ => ⟨S16x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S4000x64, .f32⟩
  | .local _ .vmem, ⟨10, _⟩ => ⟨S4000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v218 : BitVec 32 := Scalar.muli arg9 c256_i32
  v218
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v218 : BitVec 32 := Scalar.muli arg9 c256_i32
  let v219 : BitVec 32 := v218
  let v228 : Index := Scalar.indexCast v219
  let c0_80 : Index := 0#32
  ![v228.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1000000_S1000000x1 : S1000000.ShapeCasts S1000000x1
  transposes_S64x16_S16x64_1_0 : S64x16.Transposes [1, 0] S16x64
  transposes_S64x64_S64x64_1_0 : S64x64.Transposes [1, 0] S64x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x256_d1_w32 : S1x256.Iotas .tc 32 [1]
  broadcasts_S4000x1_S4000x256 : S4000x1.Broadcasts S4000x256
  broadcasts_S1x256_S4000x256 : S1x256.Broadcasts S4000x256
  natLt_1_32 : 1 < 32
  h_S256x12 : 0 < S256x12.numel
  inb_S4000x3_S4000x3_0_0 : ∀ a, (![0, 0] : Fin 2 → Nat) a + S4000x3.size a ≤ S4000x3.size a
  h_S4000x3 : 0 < S4000x3.numel
  concatenates_S4000x3_S4000x3_S4000x3_S4000x3_S4000x12_d1 : Shape.Concatenates [S4000x3, S4000x3, S4000x3, S4000x3] S4000x12 1
  slices_S4000x12_o0_0_S4000x3 : S4000x12.Slices ![0, 0] S4000x3
  slices_S4000x12_o0_3_S4000x3 : S4000x12.Slices ![0, 3] S4000x3
  slices_S4000x12_o0_6_S4000x3 : S4000x12.Slices ![0, 6] S4000x3
  slices_S4000x12_o0_9_S4000x3 : S4000x12.Slices ![0, 9] S4000x3
  reduces_S4000x3_S4000 : S4000x3.Reduces [1] S4000
  shapeCasts_S4000_S4000x1 : S4000.ShapeCasts S4000x1
  concatenates_S4000x1_S4000x1_S4000x1_S4000x1_S4000x1_S4000x1_S4000x1_S4000x1_S4000x1_S4000x1_S4000x1_S4000x1_S4000x1_S4000x1_S4000x1_S4000x1_S4000x16_d1 : Shape.Concatenates [S4000x1, S4000x1, S4000x1, S4000x1, S4000x1, S4000x1, S4000x1, S4000x1, S4000x1, S4000x1, S4000x1, S4000x1, S4000x1, S4000x1, S4000x1, S4000x1] S4000x16 1
  reduces_S4000x16_S4000 : S4000x16.Reduces [1] S4000
  broadcasts_S4000x1_S4000x16 : S4000x1.Broadcasts S4000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  bitsLt_bf16_f32 : FTy.bits .bf16 < FTy.bits .f32
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  dot_S4000x256_S256x12_S4000x12_1_0_0_1_n_n_wf : DotDims.WF S4000x256 S256x12 S4000x12 [1] [0] [0] [1] [] []
  dot_S4000x16_S16x64_S4000x64_1_0_0_1_n_n_wf : DotDims.WF S4000x16 S16x64 S4000x64 [1] [0] [0] [1] [] []
  dot_S4000x64_S64x64_S4000x64_1_0_0_1_n_n_wf : DotDims.WF S4000x64 S64x64 S4000x64 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x12.size a ≤ S8192x12.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S1000000x3.size a
  hwx0_0 : ∀ i : grid0.Coords, EltTy.bits .f32 = 32 ∨ (Rect.block (s := S1000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x12.size a ≤ S8192x12.size a
  hwx0_2 : ∀ i : grid0.Coords, EltTy.bits .f32 = 32 ∨ (Rect.block (s := S8192x12) S8192x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S1000000x64.size a
  hwx0_7 : ∀ i : grid0.Coords, EltTy.bits .f32 = 32 ∨ (Rect.block (s := S1000000x64) S4000x64.size (cc0_transform_7 i) (hinb0_7 i)).WholeWords (EltTy.packing .f32)

variable [Facts₀]

def dot_S4000x256_S256x12_S4000x12_1_0_0_1_n_n : DotDims S4000x256 S256x12 S4000x12 where
  lhsContracting := [1]
  rhsContracting := [0]
  lhsNonContracting := [0]
  rhsNonContracting := [1]
  lhsBatch := []
  rhsBatch := []
  wf := dot_S4000x256_S256x12_S4000x12_1_0_0_1_n_n_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg1) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x3 : Shape := ⟨2, ![1000000, 3]⟩
abbrev S8192x12 : Shape := ⟨2, ![8192, 12]⟩
abbrev S1000000 : Shape := ⟨1, ![1000000]⟩
abbrev S64x16 : Shape := ⟨2, ![64, 16]⟩
abbrev S64 : Shape := ⟨1, ![64]⟩
abbrev S64x64 : Shape := ⟨2, ![64, 64]⟩
abbrev S1x1000000x1x3 : Shape := ⟨4, ![1, 1000000, 1, 3]⟩
abbrev S1x1000000x4x3 : Shape := ⟨4, ![1, 1000000, 4, 3]⟩
abbrev S1000000x12 : Shape := ⟨2, ![1000000, 12]⟩
abbrev S_ : Shape := ⟨0, ![]⟩
abbrev S1000000x1 : Shape := ⟨2, ![1000000, 1]⟩
abbrev S1000000x4x3 : Shape := ⟨3, ![1000000, 4, 3]⟩
abbrev S1000000x4x1x3 : Shape := ⟨4, ![1000000, 4, 1, 3]⟩
abbrev S1000000x1x4x3 : Shape := ⟨4, ![1000000, 1, 4, 3]⟩
abbrev S1000000x4x4x3 : Shape := ⟨4, ![1000000, 4, 4, 3]⟩
abbrev S1000000x4x4 : Shape := ⟨3, ![1000000, 4, 4]⟩
abbrev S1000000x16 : Shape := ⟨2, ![1000000, 16]⟩
abbrev S16x64 : Shape := ⟨2, ![16, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x3, .f32⟩
  | .hbm, ⟨2, _⟩ => ⟨S8192x12, .f32⟩
  | .hbm, ⟨3, _⟩ => ⟨S1000000, .i32⟩
  | .hbm, ⟨4, _⟩ => ⟨S64x16, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1000000x1x3, .f32⟩
  | .hbm, ⟨9, _⟩ => ⟨S1x1000000x4x3, .f32⟩
  | .hbm, ⟨10, _⟩ => ⟨S1000000x12, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x12, .f32⟩
  | .hbm, ⟨20, _⟩ => ⟨S1000000x12, .f32⟩
  | .hbm, ⟨21, _⟩ => ⟨S1000000x4x3, .f32⟩
  | .hbm, ⟨22, _⟩ => ⟨S1000000x4x1x3, .f32⟩
  | .hbm, ⟨23, _⟩ => ⟨S1000000x1x4x3, .f32⟩
  | .hbm, ⟨24, _⟩ => ⟨S1000000x4x4x3, .f32⟩
  | .hbm, ⟨25, _⟩ => ⟨S1000000x4x4x3, .f32⟩
  | .hbm, ⟨26, _⟩ => ⟨S1000000x4x4x3, .f32⟩
  | .hbm, ⟨27, _⟩ => ⟨S1000000x4x4x3, .f32⟩
  | .hbm, ⟨28, _⟩ => ⟨S_, .f32⟩
  | .hbm, ⟨29, _⟩ => ⟨S1000000x4x4, .f32⟩
  | .hbm, ⟨30, _⟩ => ⟨S_, .f32⟩
  | .hbm, ⟨31, _⟩ => ⟨S1000000x4x4, .f32⟩
  | .hbm, ⟨32, _⟩ => ⟨S1000000x4x4, .i1⟩
  | .hbm, ⟨33, _⟩ => ⟨S_, .f32⟩
  | .hbm, ⟨34, _⟩ => ⟨S_, .f32⟩
  | .hbm, ⟨35, _⟩ => ⟨S1000000x4x4, .f32⟩
  | .hbm, ⟨36, _⟩ => ⟨S1000000x4x4, .f32⟩
  | .hbm, ⟨37, _⟩ => ⟨S1000000x4x4, .f32⟩
  | .hbm, ⟨38, _⟩ => ⟨S_, .f32⟩
  | .hbm, ⟨39, _⟩ => ⟨S_, .f32⟩
  | .hbm, ⟨40, _⟩ => ⟨S1000000x4x4, .f32⟩
  | .hbm, ⟨41, _⟩ => ⟨S1000000x4x4, .f32⟩
  | .hbm, ⟨42, _⟩ => ⟨S1000000x16, .f32⟩
  | .hbm, ⟨43, _⟩ => ⟨S1000000x16, .f32⟩
  | .hbm, ⟨44, _⟩ => ⟨S_, .f32⟩
  | .hbm, ⟨45, _⟩ => ⟨S1000000, .f32⟩
  | .hbm, ⟨46, _⟩ => ⟨S1000000x1, .f32⟩
  | .hbm, ⟨47, _⟩ => ⟨S1000000x1, .f32⟩
  | .hbm, ⟨48, _⟩ => ⟨S_, .f32⟩
  | .hbm, ⟨49, _⟩ => ⟨S1000000x1, .f32⟩
  | .hbm, ⟨50, _⟩ => ⟨S1000000x1, .f32⟩
  | .hbm, ⟨51, _⟩ => ⟨S1000000x16, .f32⟩
  | .hbm, ⟨52, _⟩ => ⟨S1000000x16, .f32⟩
  | .hbm, ⟨53, _⟩ => ⟨S16x64, .f32⟩
  | .hbm, ⟨54, _⟩ => ⟨S1000000x64, .f32⟩
  | .hbm, ⟨55, _⟩ => ⟨S1x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S64x64, .f32⟩
  | .hbm, ⟨68, _⟩ => ⟨S1000000x64, .f32⟩
  | .hbm, ⟨69, _⟩ => ⟨S1x64, .f32⟩
  | .hbm, ⟨70, _⟩ => ⟨S1000000x64, .f32⟩
  | .hbm, ⟨71, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_v24 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  shapeCasts_S1000000x3_S1x1000000x1x3 : S1000000x3.ShapeCasts S1x1000000x1x3
  bcast_S1x1000000x1x3_S1x1000000x4x3_0_1_2_3 : S1x1000000x1x3.BroadcastsInDim S1x1000000x4x3 (![0, 1, 2, 3] : Fin 4 → Fin S1x1000000x4x3.rank)
  shapeCasts_S1x1000000x4x3_S1000000x12 : S1x1000000x4x3.ShapeCasts S1000000x12
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x12_S1000000x4x3 : S1000000x12.ShapeCasts S1000000x4x3
  bcast_S1000000x4x3_S1000000x4x1x3_0_1_3 : S1000000x4x3.BroadcastsInDim S1000000x4x1x3 (![0, 1, 3] : Fin 3 → Fin S1000000x4x1x3.rank)
  bcast_S1000000x4x3_S1000000x1x4x3_0_2_3 : S1000000x4x3.BroadcastsInDim S1000000x1x4x3 (![0, 2, 3] : Fin 3 → Fin S1000000x1x4x3.rank)
  bcast_S1000000x4x1x3_S1000000x4x4x3_0_1_2_3 : S1000000x4x1x3.BroadcastsInDim S1000000x4x4x3 (![0, 1, 2, 3] : Fin 4 → Fin S1000000x4x4x3.rank)
  bcast_S1000000x1x4x3_S1000000x4x4x3_0_1_2_3 : S1000000x1x4x3.BroadcastsInDim S1000000x4x4x3 (![0, 1, 2, 3] : Fin 4 → Fin S1000000x4x4x3.rank)
  reducesTo_S1000000x4x4x3_S1000000x4x4_d3 : S1000000x4x4x3.ReducesTo [3] S1000000x4x4
  h_S_ : 0 < S_.numel
  bcast_S_S1000000x4x4 : S_.BroadcastsInDim S1000000x4x4 (![] : Fin 0 → Fin S1000000x4x4.rank)
  shapeCasts_S1000000x4x4_S1000000x16 : S1000000x4x4.ShapeCasts S1000000x16
  reducesTo_S1000000x16_S1000000_d1 : S1000000x16.ReducesTo [1] S1000000
  bcast_S_S1000000x1 : S_.BroadcastsInDim S1000000x1 (![] : Fin 0 → Fin S1000000x1.rank)
  bcast_S1000000x1_S1000000x16_0_1 : S1000000x1.BroadcastsInDim S1000000x16 (![0, 1] : Fin 2 → Fin S1000000x16.rank)
  transposes_S64x16_S16x64_1_0 : S64x16.Transposes [1, 0] S16x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  gather_S8192x12_S1000000x1_S1000000x12_1_0_n_n_0_1_112_wf : GatherDims.WF S8192x12 S1000000x1 S1000000x12 [1] [0] [] [0] [] 1 ![1, 12]
  dot_S1000000x16_S16x64_S1000000x64_1_0_0_1_n_n_wf : DotDims.WF S1000000x16 S16x64 S1000000x64 [1] [0] [0] [1] [] []
  dot_S1000000x64_S64x64_S1000000x64_1_0_0_1_n_n_wf : DotDims.WF S1000000x64 S64x64 S1000000x64 [1] [0] [0] [1] [] []

variable [Facts₀]

def gather_S8192x12_S1000000x1_S1000000x12_1_0_n_n_0_1_112 : GatherDims S8192x12 S1000000x1 S1000000x12 where
  offsetDims := [1]
  collapsedSliceDims := [0]
  operandBatchingDims := []
  startIndicesBatchingDims := []
  startIndexMap := [0]
  indexVectorDim := 1
  sliceSizes := ![1, 12]
  wf := gather_S8192x12_S1000000x1_S1000000x12_1_0_n_n_0_1_112_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.BatchRange.lean ====
/-
  Reading the precondition back: its last conjunct says every group word is at least 0 and below 8192 read signed,
  so read unsigned it is below 8192 — a row of the 8192-row table.
-/
import proofs.«401669_j7885559956062_3_alg».proof.Pre_finite_inputs
import Idealize.ShloMosaic.Lib.ReduceAll
import Idealize.ShloMosaic.Lib.ValueIdx
import Idealize.ShloMosaic.Lib.StableHlo.Predicate

noncomputable section

namespace Cert.BatchRange

open Idealize.ShloMosaic Idealize.ShloMosaic.ValueIdx Cert.Pre_finite_inputs

instance : Subsingleton S_.Idx := ⟨fun a b => funext fun d => d.elim0⟩

/-- A word at least 0 and below 8192 read signed is below 8192 read unsigned. -/
theorem toNat_lt_of_toInt (b : BitVec 32) (h0 : (0#32 : BitVec 32).toInt ≤ b.toInt) (h1 : b.toInt < (8192#32 : BitVec 32).toInt) :
    b.toNat < 8192 := by
  have e0 : (0#32 : BitVec 32).toInt = 0 := by decide
  have e1 : (8192#32 : BitVec 32).toInt = 8192 := by decide
  rw [e0] at h0; rw [e1] at h1
  rw [BitVec.toInt_eq_toNat_cond] at h0 h1
  have := b.isLt
  split_ifs at h0 h1 <;> omega

variable {F : FTy → Type} [FloatOps F] [hP : Cert.Pre_finite_inputs.Facts]

/-- Where the precondition holds, every group word is a row of the table. -/
theorem range_of_pre (a0 : FVec F S1000000x64 .f32) (a1 : FVec F S1000000x3 .f32) (a2 : FVec F S8192x12 .f32) (a3 : IVec S1000000 32)
    (a4 : FVec F S64x16 .f32) (a5 : FVec F S64 .f32) (a6 : FVec F S64x64 .f32) (a7 : FVec F S64 .f32)
    (h : fn (F := F) a0 a1 a2 a3 a4 a5 a6 a7 = fun _ => 1#1) (n : Fin 1000000) : (a3 (ix1 n)).toNat < 8192 := by
  have h0 := congrFun h ix0
  unfold fn fn_part1 fn_part2 at h0
  dsimp only at h0
  have h1 := (IntOp.andi_eq_one.1 h0).2
  have h2 := Host.reduce_andi_all _ _ _ _ _ h1 (ix1 n)
  obtain ⟨hge, hlt⟩ := IntOp.andi_eq_one.1 h2
  have e0 : broadcastInDim S1000000 ![] Facts.bcast_S_S1000000 (constantI S_ 32 0#32) (ix1 n) = 0#32 :=
    StableHlo.Predicate.bcast_scalar Facts.bcast_S_S1000000 Facts.h_S_ _ _
  have e1 : broadcastInDim S1000000 ![] Facts.bcast_S_S1000000 (constantI S_ 32 8192#32) (ix1 n) = 8192#32 :=
    StableHlo.Predicate.bcast_scalar Facts.bcast_S_S1000000 Facts.h_S_ _ _
  have hge' := IntOp.cmpi_sge.1 hge
  have hlt' := IntOp.cmpi_slt.1 hlt
  rw [e0] at hge'
  rw [e1] at hlt'
  exact toNat_lt_of_toInt _ hge' hlt'

end Cert.BatchRange

end
-- ==== Proof.BlockValue.lean ====
/-
  What one grid point stores, as one pure term of the values it loads: the point's 4000 positions x0, the
  12 gathered group coordinates per row g (what the chunk loop leaves), the two weights x3, x5 and the two biases
  x4, x6.  The four 3-column slices of (positions repeated - gathered) feed the 16 pairwise distances, those the
  normalisation and the two matrix products.
-/
import proofs.«401669_j7885559956062_3_alg».proof.Proof.Gen.KernelIdeal.Skeleton

noncomputable section

namespace Cert.KernelIdeal.RowValue

open Cert.KernelIdeal Cert.KernelIdeal.Gen Idealize.ShloMosaic

variable {F : FTy → Type} [FloatOps F]

/-- The stored block as a function of the loaded values (g = the gathered rows). -/
def blockVal (g : FVec F S4000x12 .f32) (x0 : Vec F S4000x3 .f32) (x3 : Vec F S16x64 .f32) (x4 : Vec F S64 .f32)
    (x5 : Vec F S64x64 .f32) (x6 : Vec F S64 .f32) : FVec F S4000x64 .f32 :=
  k0_pay1
    (k0_pay31 (k0_pay8 g x0) (k0_pay9 g x0) (k0_pay10 g x0) (k0_pay13 (k0_pay11 g x0) (k0_pay12 g x0))
      (k0_pay14 (k0_pay5 g x0) (k0_pay8 g x0)) (k0_pay15 (k0_pay5 g x0) (k0_pay6 g x0)) (k0_pay16 (k0_pay6 g x0))
      (k0_pay19 (k0_pay17 (k0_pay6 g x0) (k0_pay7 g x0)) (k0_pay18 (k0_pay6 g x0) (k0_pay7 g x0)))
      (k0_pay20 (k0_pay6 g x0) (k0_pay8 g x0)) (k0_pay21 (k0_pay5 g x0) (k0_pay7 g x0)) (k0_pay22 (k0_pay6 g x0) (k0_pay7 g x0))
      (k0_pay25 (k0_pay23 (k0_pay7 g x0)) (k0_pay24 (k0_pay7 g x0)))
      (k0_pay26 (k0_pay7 g x0) (k0_pay8 g x0)) (k0_pay27 (k0_pay5 g x0) (k0_pay8 g x0)) (k0_pay28 (k0_pay6 g x0) (k0_pay8 g x0))
      (k0_pay29 (k0_pay7 g x0) (k0_pay8 g x0)) (k0_pay30 (k0_pay7 g x0) (k0_pay8 g x0)) x3 x4 x5)
    (k0_pay32 x6)

end Cert.KernelIdeal.RowValue

end
-- ==== Proof.ChunkFold.lean ====
/-
  The chunk loop as a fold: the carried [4000, 12] value starts at zero and each of the 32 trips adds the product of
  the trip's selection matrix (row r selects column q of chunk k when the row's group word equals 256 k + q) with the
  trip's 256 rows of the group table.
-/
import proofs.«401669_j7885559956062_3_alg».proof.Proof.Gen.KernelIdeal.Skeleton

noncomputable section

namespace Cert.KernelIdeal.RowValue

open Cert.KernelIdeal Cert.KernelIdeal.Gen Idealize.ShloMosaic

variable {F : FTy → Type} [FloatOps F]

/-- The carried value before trip n, over the group words x1 and the trips' table chunks blk. -/
def chunkFold (x1 : Vec F S4000x1 .i32) (blk : Fin k0_t1_loop.trips → Vec F S256x12 .f32) : ℕ → FVec F S4000x12 .f32
  | 0 => k0_pay2
  | n + 1 => if h : n < k0_t1_loop.trips then k0_pay3 x1 ⟨n, h⟩ (chunkFold x1 blk n) (blk ⟨n, h⟩) else chunkFold x1 blk n

/-- The loop has 32 trips. -/
theorem trips_eq : k0_t1_loop.trips = 32 := by decide

end Cert.KernelIdeal.RowValue

end
-- ==== Proof.BlockRun.lean ====
/-
  What the body's run leaves in the output block, read back as a value: the one covering store's payload over the
  loaded blocks, with the loop's result the fold of the 32 chunk trips (each trip loads 256 rows of the table at
  row offset 256 k and adds its selection product to the carried value).
-/
import proofs.«401669_j7885559956062_3_alg».proof.Proof.Gen.KernelIdeal.Frame
import proofs.«401669_j7885559956062_3_alg».proof.Proof.BlockValue
import proofs.«401669_j7885559956062_3_alg».proof.Proof.ChunkFold
import Idealize.ShloMosaic.Lib.Pipeline.Value
import Idealize.ShloMosaic.Lib.ValueIdx
import Idealize.ShloMosaic.Lib.Tactic

noncomputable section

namespace Cert.KernelIdeal.RowValue

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- Chunk k of the table: its 256 rows from row offset 256 k. -/
def chunkOf (x2 : Vec F S8192x12 .f32) (k : Fin k0_t1_loop.trips) : Vec F S256x12 .f32 :=
  View.ld x2 (Rect.unit (s := S8192x12) (k0_off1 k) S256x12.size (k0_off1_inb k))

/-- The body's one store covers the block; what it leaves is the block value over the loaded blocks, the gathered
    rows being the loop's carried value after its last trip. -/
theorem out_eq (c : Dev nD) (i : grid0.Coords) (arg1 : Memref sig .tc .vmem S4000x3 .f32) (harg1 : arg1.IsWhole) (arg2 : Memref sig .tc .vmem S4000x1 .i32) (harg2 : arg2.IsWhole) (arg3 : Memref sig .tc .vmem S8192x12 .f32) (harg3 : arg3.IsWhole) (arg4 : Memref sig .tc .vmem S16x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S4000x64 .f32) (harg8 : arg8.IsWhole)
    (x0 : Vec F S4000x3 .f32) (x1 : Vec F S4000x1 .i32) (x2 : Vec F S8192x12 .f32) (x3 : Vec F S16x64 .f32) (x4 : Vec F S64 .f32) (x5 : Vec F S64x64 .f32) (x6 : Vec F S64 .f32) :
    out0_A_7 c i arg1 harg1 arg2 harg2 arg3 harg3 arg4 harg4 arg5 harg5 arg6 harg6 arg7 harg7 arg8 harg8 x0 x1 x2 x3 x4 x5 x6
      = blockVal (st_k0_t1 Variants.none c none i arg1 harg1 arg2 harg2 arg3 harg3 arg4 harg4 arg5 harg5 arg6 harg6 arg7 harg7 arg8 harg8 x1 (harg3.unread x2) k0_pay2 k0_t1_loop.trips) x0 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz]
  simp only [View.readAt_eq_ld, harg1.read_unread, harg2.read_unread, harg4.read_unread, harg5.read_unread, harg6.read_unread, harg7.read_unread,
    View.ld_unit_zero (S := S4000x3) hz, View.ld_unit_zero (S := S4000x1) hz, View.ld_unit_zero (S := S16x64) hz, View.ld_unit_zero (S := S64x64) hz, View.ld_unit_zero (S := S64) hz1]
  unfold blockVal
  rfl

/-- One trip yields the trip's payload of the carried value and the chunk it loads. -/
theorem trip_eq (𝒱 : Variants) (c : Dev nD) (bd : Option 𝒱.V) (i : grid0.Coords) (arg1 : Memref sig .tc .vmem S4000x3 .f32) (harg1 : arg1.IsWhole) (arg2 : Memref sig .tc .vmem S4000x1 .i32) (harg2 : arg2.IsWhole) (arg3 : Memref sig .tc .vmem S8192x12 .f32) (harg3 : arg3.IsWhole) (arg4 : Memref sig .tc .vmem S16x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S4000x64 .f32) (harg8 : arg8.IsWhole) (v0 : Vec F S4000x1 .i32) (x2 : Vec F S8192x12 .f32) (k : Fin k0_t1_loop.trips) (acc : FVec F S4000x12 .f32) :
    tripR_k0_t1 (F := F) 𝒱 c bd i arg1 harg1 arg2 harg2 arg3 harg3 arg4 harg4 arg5 harg5 arg6 harg6 arg7 harg7 arg8 harg8 v0 (harg3.unread x2) k acc = k0_pay3 v0 k acc (chunkOf x2 k) := by
  unfold tripR_k0_t1 trip_k0_t1
  dsimp only
  rw [View.readAt_eq_ld, harg3.read_unread]
  rfl

/-- The carried value before trip n is the fold of the first n trips. -/
theorem st_eq_fold (𝒱 : Variants) (c : Dev nD) (bd : Option 𝒱.V) (i : grid0.Coords) (arg1 : Memref sig .tc .vmem S4000x3 .f32) (harg1 : arg1.IsWhole) (arg2 : Memref sig .tc .vmem S4000x1 .i32) (harg2 : arg2.IsWhole) (arg3 : Memref sig .tc .vmem S8192x12 .f32) (harg3 : arg3.IsWhole) (arg4 : Memref sig .tc .vmem S16x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S4000x64 .f32) (harg8 : arg8.IsWhole) (v0 : Vec F S4000x1 .i32) (x2 : Vec F S8192x12 .f32) (n : ℕ) :
    st_k0_t1 (F := F) 𝒱 c bd i arg1 harg1 arg2 harg2 arg3 harg3 arg4 harg4 arg5 harg5 arg6 harg6 arg7 harg7 arg8 harg8 v0 (harg3.unread x2) k0_pay2 n = chunkFold v0 (chunkOf x2) n := by
  induction n with
  | zero => rfl
  | succ n ih =>
    rw [st_k0_t1.eq_2, chunkFold]
    unfold st_k0_t1Step
    by_cases h : n < k0_t1_loop.trips
    · rw [dif_pos h, dif_pos h, ih, trip_eq]
    · rw [dif_neg h, dif_neg h, ih]

/-- The row offset of trip k's load is 256 k, its column offset 0 (decided over the 32 trips). -/
theorem off_rows : ∀ k : Fin k0_t1_loop.trips, (k0_off1 k) 0 = 256 * k.val ∧ (k0_off1 k) 1 = 0 := by decide +kernel

/-- Chunk k read at (q, j) is the table at (256 k + q, j). -/
theorem chunkOf_apply (x2 : Vec F S8192x12 .f32) (k : Fin k0_t1_loop.trips) (q : Fin 256) (j : Fin 12) (h : 256 * k.val + q.val < 8192) :
    chunkOf x2 k (ix2 q j) = x2 (ix2 ⟨256 * k.val + q.val, h⟩ j) := by
  unfold chunkOf
  show x2 ((Rect.unit (s := S8192x12) (k0_off1 k) S256x12.size (k0_off1_inb k)).emb (ix2 q j)) = _
  congr 1
  funext a
  refine Fin.ext ?_
  match a with
  | ⟨0, _⟩ => show (k0_off1 k) 0 + 1 * q.val = 256 * k.val + q.val; rw [(off_rows k).1]; omega
  | ⟨1, _⟩ => show (k0_off1 k) 1 + 1 * j.val = j.val; rw [(off_rows k).2]; omega

end Cert.KernelIdeal.RowValue

end
-- ==== Proof.ChunkGather.lean ====
/-
  The chunk loop is a gather.

  Trip k of the loop multiplies a [4000, 256] selection matrix with rows 256 k … 256 k + 255 of the [8192, 12] group
  table and adds the product to the carried [4000, 12] value. Entry (r, q) of the selection matrix is 1 when row r's
  group word equals the word q + 256 k, and 0 otherwise. For k < 32 and q < 256 that word is the number 256 k + q
  (nothing wraps at 32 bits), so a row whose word is the number b < 8192 selects column b - 256 k in the one trip with
  256 k ≤ b < 256 k + 256 and nothing in every other trip. A selection row therefore has at most one non-zero entry,
  and its product with a column of the chunk is that column's entry at row b - 256 k, or zero: in the extended reals
  1 · x = x and 0 · x = 0 for every x, infinite ones included. By induction over the trips, after n trips entry (r, j)
  is the table's entry (b, j) when b < 256 n and zero otherwise; after all 32 trips every b < 8192 is covered.
-/
import proofs.«401669_j7885559956062_3_alg».proof.Proof.ChunkFold
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx

/-! ## The product of a [4000, 256] matrix with a [256, 12] chunk, at an entry -/

/-- The left operand's row coordinate is the result's row coordinate. -/
theorem lhs_chunk_0 (i : S4000x12.Idx) (q : dot_S4000x256_S256x12_S4000x12_1_0_0_1_n_n.contr.Idx) :
    (dot_S4000x256_S256x12_S4000x12_1_0_0_1_n_n.lhsIdx i q 0).val = (i 0).val := by
  unfold DotDims.lhsIdx
  rw [dif_neg (show ¬(0 : Fin S4000x256.rank) ∈ dot_S4000x256_S256x12_S4000x12_1_0_0_1_n_n.lhsBatch by decide),
    dif_pos (show (0 : Fin S4000x256.rank) ∈ dot_S4000x256_S256x12_S4000x12_1_0_0_1_n_n.lhsNonContracting by decide)]
  rfl

/-- The left operand's column coordinate is the contraction index. -/
theorem lhs_chunk_1 (i : S4000x12.Idx) (q : dot_S4000x256_S256x12_S4000x12_1_0_0_1_n_n.contr.Idx) :
    (dot_S4000x256_S256x12_S4000x12_1_0_0_1_n_n.lhsIdx i q 1).val = (q ⟨0, by decide⟩).val :=
  dot_S4000x256_S256x12_S4000x12_1_0_0_1_n_n.lhsIdx_val_of_single rfl i q

/-- The right operand's row coordinate is the contraction index. -/
theorem rhs_chunk_0 (i : S4000x12.Idx) (q : dot_S4000x256_S256x12_S4000x12_1_0_0_1_n_n.contr.Idx) :
    (dot_S4000x256_S256x12_S4000x12_1_0_0_1_n_n.rhsIdx i q 0).val = (q ⟨0, by decide⟩).val :=
  dot_S4000x256_S256x12_S4000x12_1_0_0_1_n_n.rhsIdx_val_of_single rfl i q

/-- The right operand's column coordinate is the result's column coordinate. -/
theorem rhs_chunk_1 (i : S4000x12.Idx) (q : dot_S4000x256_S256x12_S4000x12_1_0_0_1_n_n.contr.Idx) :
    (dot_S4000x256_S256x12_S4000x12_1_0_0_1_n_n.rhsIdx i q 1).val = (i 1).val := by
  unfold DotDims.rhsIdx
  rw [dif_neg (show ¬(1 : Fin S256x12.rank) ∈ dot_S4000x256_S256x12_S4000x12_1_0_0_1_n_n.rhsBatch by decide),
    dif_pos (show (1 : Fin S256x12.rank) ∈ dot_S4000x256_S256x12_S4000x12_1_0_0_1_n_n.rhsNonContracting by decide)]
  rfl

/-- Entry (r, j) of the product accumulated into zero: the sum over q of l[r, q] · c[q, j]. -/
theorem matmul_chunk_apply (prec : Option ContractPrecision) (l : FVec Ideal S4000x256 .f32) (c : FVec Ideal S256x12 .f32)
    (r : Fin 4000) (j : Fin 12) :
    matmul dot_S4000x256_S256x12_S4000x12_1_0_0_1_n_n prec l c (constant (F := Ideal) S4000x12 .f32 0x00000000#32) (ix2 r j)
      = ∑ q : Fin 256, l (ix2 r q) * c (ix2 q j) := by
  simp only [matmul]
  rw [Ideal.matmul_constant_zero_apply,
    ← Equiv.sum_comp (contrEquiv1 dot_S4000x256_S256x12_S4000x12_1_0_0_1_n_n 256 rfl rfl).symm]
  refine Finset.sum_congr rfl fun q _ => ?_
  have hq := contrEquiv1_symm_val dot_S4000x256_S256x12_S4000x12_1_0_0_1_n_n 256 rfl rfl q
  have el : dot_S4000x256_S256x12_S4000x12_1_0_0_1_n_n.lhsIdx (ix2 r j)
      ((contrEquiv1 dot_S4000x256_S256x12_S4000x12_1_0_0_1_n_n 256 rfl rfl).symm q) = ix2 r q :=
    funext fun a => Fin.ext (by
      match a with
      | ⟨0, _⟩ => exact lhs_chunk_0 _ _
      | ⟨1, _⟩ => exact (lhs_chunk_1 _ _).trans hq)
  have er : dot_S4000x256_S256x12_S4000x12_1_0_0_1_n_n.rhsIdx (ix2 r j)
      ((contrEquiv1 dot_S4000x256_S256x12_S4000x12_1_0_0_1_n_n 256 rfl rfl).symm q) = ix2 q j :=
    funext fun a => Fin.ext (by
      match a with
      | ⟨0, _⟩ => exact (rhs_chunk_0 _ _).trans hq
      | ⟨1, _⟩ => exact rhs_chunk_1 _ _)
  rw [el, er]

/-! ## The selection matrix at an entry -/

/-- A [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit equality test widened to 32 bits and converted: 1 where the words agree, 0 elsewhere. -/
theorem sitofp_extui_cmpi_eq (a b : BitVec 32) :
    FloatOps.sitofp (F := Ideal) .f32 ((IntOp.cmpi .eq a b).setWidth 32) = if a = b then 1 else 0 := by
  show (((BitVec.setWidth 32 (BitVec.ofBool (a == b))).toInt : ℝ) : EReal) = _
  by_cases h : a = b
  · have hb : (a == b) = true := by simpa using h
    have h1 : (BitVec.setWidth 32 (BitVec.ofBool true)).toInt = 1 := by decide
    rw [hb, if_pos h, h1]
    simp
  · have hb : (a == b) = false := by simpa using h
    have h0 : (BitVec.setWidth 32 (BitVec.ofBool false)).toInt = 0 := by decide
    rw [hb, if_neg h, h0]
    simp

/-- The selection matrix at (r, q): 1 when row r's word is the word at column q of the compared row, else 0. -/
theorem mask_apply (x1 : IVec S4000x1 32) (w : IVec S1x256 32) (r : Fin 4000) (q : Fin 256) :
    (sitofp .f32 (extui 32 (cmpi .eq
        (broadcastTo S4000x256 (shapeCast S4000x1 x1 shapeCasts_S4000x1_S4000x1) broadcasts_S4000x1_S4000x256)
        (broadcastTo S4000x256 w broadcasts_S1x256_S4000x256)) natLt_1_32) : FVec Ideal S4000x256 .f32) (ix2 r q)
      = if x1 (ix2 r (0 : Fin 1)) = w (ix2 (0 : Fin 1) q) then 1 else 0 := by
  rw [sitofp_apply, extui_apply]
  show FloatOps.sitofp (F := Ideal) .f32 ((IntOp.cmpi .eq
      (broadcastTo S4000x256 (shapeCast S4000x1 x1 shapeCasts_S4000x1_S4000x1) broadcasts_S4000x1_S4000x256 (ix2 r q))
      (broadcastTo S4000x256 w broadcasts_S1x256_S4000x256 (ix2 r q))).setWidth 32) = _
  rw [broadcastTo_a1_ab_apply, broadcastTo_1b_ab_apply, shapeCast_self]
  exact sitofp_extui_cmpi_eq _ _

/-- The word trip k compares row words with at column q: q plus 256 times the trip's counter. -/
def selWord (k : ℕ) (q : Fin 256) : BitVec 32 :=
  IntOp.addi (BitVec.ofNat 32 q.val) (Scalar.muli (Scf.iv 0#32 1#32 k) 256#32)

/-- The compared row at column q. -/
theorem selRow_apply (c : BitVec 32) (q : Fin 256) :
    addi (iota .tc S1x256 32 [1] iota_S1x256_d1_w32) (broadcast S1x256 c) (ix2 (0 : Fin 1) q)
      = IntOp.addi (BitVec.ofNat 32 q.val) c := by
  show IntOp.addi (iota .tc S1x256 32 [1] iota_S1x256_d1_w32 (ix2 (0 : Fin 1) q)) c = _
  rw [iota_single_apply]

/-- One trip at an entry: the carried entry plus the sum over the chunk's rows of the selection entry times the chunk's entry. -/
theorem trip_apply (x1 : Vec Ideal S4000x1 .i32) (k : Fin k0_t1_loop.trips) (acc : FVec Ideal S4000x12 .f32)
    (v229 : Vec Ideal S256x12 .f32) (r : Fin 4000) (j : Fin 12) :
    k0_pay3 x1 k acc v229 (ix2 r j)
      = acc (ix2 r j) + ∑ q : Fin 256, (if x1 (ix2 r (0 : Fin 1)) = selWord k.val q then 1 else 0) * v229 (ix2 q j) := by
  simp only [k0_pay3]
  rw [addf_apply, matmul_chunk_apply]
  refine congrArg (acc (ix2 r j) + ·) (Finset.sum_congr rfl fun q _ => ?_)
  rw [mask_apply, selRow_apply, selWord]

/-! ## The selection row picks one row of the chunk -/

/-- For a trip counter below 32 the compared word at column q is the number 256 k + q: nothing wraps. -/
theorem selWord_toNat (k : ℕ) (hk : k < 32) (q : Fin 256) : (selWord k q).toNat = 256 * k + q.val := by
  have hq := q.isLt
  simp only [selWord, IntOp.addi, Scalar.muli, IntOp.muli, Scf.iv, BitVec.toNat_add, BitVec.toNat_mul, BitVec.toNat_ofNat]
  omega

/-- A row word is the compared word exactly when its number is 256 k + q. -/
theorem eq_selWord_iff (a : BitVec 32) (k : ℕ) (hk : k < 32) (q : Fin 256) :
    a = selWord k q ↔ a.toNat = 256 * k + q.val := by
  rw [← selWord_toNat k hk q]
  exact BitVec.toNat_inj.symm

/-- The selection row has at most one non-zero entry, so its product with the chunk's column j is the chunk's entry at
    row b - 256 k when the row word's number b lies in the trip's range [256 k, 256 k + 256), and zero otherwise. In the
    extended reals 0 · x = 0 and 1 · x = x for every x, so no entry needs to be finite. -/
theorem sel_sum (a : BitVec 32) (k : ℕ) (hk : k < 32) (v : FVec Ideal S256x12 .f32) (j : Fin 12) :
    ∑ q : Fin 256, (if a = selWord k q then 1 else 0) * v (ix2 q j)
      = if h : 256 * k ≤ a.toNat ∧ a.toNat < 256 * k + 256 then v (ix2 (⟨a.toNat - 256 * k, by omega⟩ : Fin 256) j) else 0 := by
  split
  · rename_i h
    rw [Finset.sum_eq_single (⟨a.toNat - 256 * k, by omega⟩ : Fin 256)]
    · rw [if_pos ((eq_selWord_iff a k hk _).2 (by show a.toNat = 256 * k + (a.toNat - 256 * k); omega)), one_mul]
    · intro q _ hne
      rw [if_neg, zero_mul]
      intro he
      have hq := (eq_selWord_iff a k hk q).1 he
      exact hne (Fin.ext (by show q.val = a.toNat - 256 * k; omega))
    · intro hn
      exact absurd (Finset.mem_univ _) hn
  · rename_i h
    refine Finset.sum_eq_zero fun q _ => ?_
    rw [if_neg, zero_mul]
    intro he
    have hq := (eq_selWord_iff a k hk q).1 he
    have := q.isLt
    omega

/-! ## The fold over the trips -/

/-- After n ≤ 32 trips entry (r, j) of the carried value is the table's entry (b, j) when the row's number b is below
    256 n, and zero otherwise: trip n adds the table's row b exactly when 256 n ≤ b < 256 n + 256, and adds zero
    elsewhere. -/
theorem chunkFold_prefix (x1 : Vec Ideal S4000x1 .i32) (x2 : Vec Ideal S8192x12 .f32) (blk : Fin k0_t1_loop.trips → Vec Ideal S256x12 .f32)
    (hblk : ∀ (k : Fin k0_t1_loop.trips) (q : Fin 256) (j : Fin 12) (h : 256 * k.val + q.val < 8192),
      blk k (ix2 q j) = x2 (ix2 ⟨256 * k.val + q.val, h⟩ j))
    (r : Fin 4000) (j : Fin 12) (hb : (x1 (ix2 r 0)).toNat < 8192) (n : ℕ) (hn : n ≤ 32) :
    chunkFold x1 blk n (ix2 r j)
      = if (x1 (ix2 r 0)).toNat < 256 * n then x2 (ix2 ⟨(x1 (ix2 r 0)).toNat, hb⟩ j) else 0 := by
  induction n with
  | zero =>
    rw [if_neg (by omega)]
    simp only [chunkFold]
    show Ideal.ofBits .f32 0x00000000#32 = 0
    exact Ideal.ofBits_zero_f32
  | succ n ih =>
    have hlt : n < k0_t1_loop.trips := by rw [trips_eq]; omega
    have hstep : chunkFold x1 blk (n + 1) = k0_pay3 x1 ⟨n, hlt⟩ (chunkFold x1 blk n) (blk ⟨n, hlt⟩) := by
      simp only [chunkFold, dif_pos hlt]
    have ht := trip_apply x1 ⟨n, hlt⟩ (chunkFold x1 blk n) (blk ⟨n, hlt⟩) r j
    rw [hstep, ht, sel_sum (x1 (ix2 r 0)) n (by omega) (blk ⟨n, hlt⟩) j, ih (by omega)]
    by_cases h1 : (x1 (ix2 r 0)).toNat < 256 * n
    · rw [if_pos h1, dif_neg (by omega), if_pos (by omega), add_zero]
    · by_cases h2 : (x1 (ix2 r 0)).toNat < 256 * n + 256
      · rw [if_neg h1, dif_pos ⟨by omega, h2⟩, if_pos (by omega), zero_add]
        refine (hblk ⟨n, hlt⟩ ⟨(x1 (ix2 r 0)).toNat - 256 * n, by omega⟩ j
          (by show 256 * n + ((x1 (ix2 r 0)).toNat - 256 * n) < 8192; omega)).trans ?_
        exact congrArg (fun i => x2 (ix2 i j))
          (Fin.ext (by show 256 * n + ((x1 (ix2 r 0)).toNat - 256 * n) = (x1 (ix2 r 0)).toNat; omega))
      · rw [if_neg h1, dif_neg (by omega), if_neg (by omega), add_zero]

/-- The chunk loop is a gather: after all 32 trips entry (r, j) is the table's entry at the row numbered by row r's
    group word, for every word below the table's 8192 rows. -/
theorem chunkFold_gather (x1 : Vec Ideal S4000x1 .i32) (x2 : Vec Ideal S8192x12 .f32) (blk : Fin k0_t1_loop.trips → Vec Ideal S256x12 .f32)
    (hblk : ∀ (k : Fin k0_t1_loop.trips) (q : Fin 256) (j : Fin 12) (h : 256 * k.val + q.val < 8192),
      blk k (ix2 q j) = x2 (ix2 ⟨256 * k.val + q.val, h⟩ j))
    (r : Fin 4000) (j : Fin 12) (hb : (x1 (ix2 r 0)).toNat < 8192) :
    chunkFold x1 blk k0_t1_loop.trips (ix2 r j) = x2 (ix2 ⟨(x1 (ix2 r 0)).toNat, hb⟩ j) := by
  rw [trips_eq, chunkFold_prefix x1 x2 blk hblk r j hb 32 (le_refl _), if_pos (by omega)]

end Cert.KernelIdeal.RowValue

end
-- ==== Proof.Spec.lean ====
/-
  The function both programs compute, row by row.

  For node n with position p = node_pos[n] (3 coordinates) and group row v = vn_pos[batch[n]] (4 virtual
  nodes x 3 coordinates) the relative vectors are u[3a+d] = p[d] - v[3a+d].  The 16 features are the
  pairwise distances |u_a - u_b| with the zero-safe root (sqrt s where s > 0, else 0), divided by
  their Euclidean norm plus a small constant; then a two-layer perceptron with the activation
  x * logistic x.  Everything is over the extended reals, with the programs' own literals kept as words.
-/
import Idealize.ShloMosaic.PureOps.Ideal
import Idealize.ShloMosaic.PureOps.Ideal.Laws
import Idealize.ShloMosaic.Lib.ValueIdx

noncomputable section

open scoped BigOperators

namespace Cert.VnFeat

open Idealize.ShloMosaic Idealize.ShloMosaic.ValueIdx

/-- The words of the literals 0, 1 and 0.001 as both programs carry them. -/
abbrev zeroW : EReal := Ideal.ofBits .f32 0x00000000#32
abbrev oneW : EReal := Ideal.ofBits .f32 0x3F800000#32
abbrev epsW : EReal := Ideal.ofBits .f32 0x3A83126F#32

/-- Coordinate d of virtual node a among a row's 12 relative coordinates. -/
abbrev c3 (a : Fin 4) (d : Fin 3) : Fin 12 := ⟨3 * a.val + d.val, by omega⟩

/-- The squared distance between the relative vectors of virtual nodes a and b. -/
def sqd (u : Fin 12 → EReal) (a b : Fin 4) : EReal :=
  ∑ d : Fin 3, (u (c3 a d) - u (c3 b d)) * (u (c3 a d) - u (c3 b d))

/-- The zero-safe root: sqrt s where s > 0 (the root taken of s there and of 1 elsewhere), else 0. -/
def root0 (s : EReal) : EReal :=
  Scalar.select (Ideal.cmp .ogt s zeroW) (Ideal.sqrt (Scalar.select (Ideal.cmp .ogt s zeroW) s oneW)) zeroW

/-- Feature k = 4a + b before normalisation: the distance between virtual nodes a and b. -/
def pd (u : Fin 12 → EReal) (k : Fin 16) : EReal :=
  root0 (sqd u ⟨k.val / 4, by omega⟩ ⟨k.val % 4, by omega⟩)

/-- The Euclidean norm of the 16 distances. -/
def nrm (u : Fin 12 → EReal) : EReal := Ideal.sqrt (∑ k : Fin 16, pd u k * pd u k)

/-- The normalised feature. -/
def feat (u : Fin 12 → EReal) (k : Fin 16) : EReal := Ideal.div (pd u k) (nrm u + epsW)

/-- The hidden pre-activation o: the features against column o of the first weight (given as [16, 64]) plus its bias. -/
def hid (u : Fin 12 → EReal) (w1 : Fin 16 → Fin 64 → EReal) (b1 : Fin 64 → EReal) (o : Fin 64) : EReal :=
  (∑ k : Fin 16, feat u k * w1 k o) + b1 o

/-- The activation x * logistic x. -/
def act (x : EReal) : EReal := x * Ideal.logistic x

/-- Output p of a row: the activations against column p of the second weight (given as [64, 64]) plus its bias. -/
def outRow (u : Fin 12 → EReal) (w1 : Fin 16 → Fin 64 → EReal) (b1 : Fin 64 → EReal)
    (w2 : Fin 64 → Fin 64 → EReal) (b2 : Fin 64 → EReal) (p : Fin 64) : EReal :=
  (∑ o : Fin 64, act (hid u w1 b1 o) * w2 o p) + b2 p

/-- The group row node n reads: its batch word as a row of the table (reduced into range, which changes nothing for a word already in range). -/
abbrev rowOf (bt : (⟨1, ![1000000]⟩ : Shape).Idx → BitVec 32) (n : Fin 1000000) : Fin 8192 :=
  ⟨(bt (ix1 n)).toNat % 8192, Nat.mod_lt _ (by norm_num)⟩

/-- Node n's 12 relative coordinates: its position repeated four times minus its group's row. -/
def relv (np : (⟨2, ![1000000, 3]⟩ : Shape).Idx → EReal) (vn : (⟨2, ![8192, 12]⟩ : Shape).Idx → EReal)
    (bt : (⟨1, ![1000000]⟩ : Shape).Idx → BitVec 32) (n : Fin 1000000) (j : Fin 12) : EReal :=
  np (ix2 n ⟨j.val % 3, by omega⟩) - vn (ix2 (rowOf bt n) j)

/-- The whole result: entry (n, p) is output p of node n's row, the weights read transposed. -/
def G (np : (⟨2, ![1000000, 3]⟩ : Shape).Idx → EReal) (vn : (⟨2, ![8192, 12]⟩ : Shape).Idx → EReal)
    (bt : (⟨1, ![1000000]⟩ : Shape).Idx → BitVec 32)
    (W1 : (⟨2, ![64, 16]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨2, ![1000000, 64]⟩ : Shape).Idx → EReal := fun i =>
  outRow (relv np vn bt ⟨(i 0).val, idx2_lt0 i⟩) (fun k o => W1 (ix2 o k)) (fun o => b1 (ix1 o))
    (fun o p => W2 (ix2 p o)) (fun p => b2 (ix1 p)) ⟨(i 1).val, idx2_lt1 i⟩

theorem G_apply (np : (⟨2, ![1000000, 3]⟩ : Shape).Idx → EReal) (vn : (⟨2, ![8192, 12]⟩ : Shape).Idx → EReal)
    (bt : (⟨1, ![1000000]⟩ : Shape).Idx → BitVec 32)
    (W1 : (⟨2, ![64, 16]⟩ : Shape).Idx → EReal) (b1 : (⟨1, ![64]⟩ : Shape).Idx → EReal)
    (W2 : (⟨2, ![64, 64]⟩ : Shape).Idx → EReal) (b2 : (⟨1, ![64]⟩ : Shape).Idx → EReal)
    (n : Fin 1000000) (p : Fin 64) :
    G np vn bt W1 b1 W2 b2 (ix2 n p) = outRow (relv np vn bt n) (fun k o => W1 (ix2 o k)) (fun o => b1 (ix1 o))
      (fun o p => W2 (ix2 p o)) (fun p => b2 (ix1 p)) p := rfl

end Cert.VnFeat

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.RowReads.lean ====
/-
  The vector steps of one [4000, ·] block read at a (row, column) entry, over arbitrary blocks.

  * four copies of a [4000, 3] block side by side: entry (r, j) is the block at (r, j mod 3);
  * sixteen one-column blocks side by side: entry (r, k) is column k at (r, 0);
  * the sum along a row kept as a column: entry (r, 0) is the finite sum of the row;
  * a [64] vector laid as a row and repeated down the rows: entry (r, o) is the vector at o;
  * a product into a zero accumulator: entry (i, j) is the finite sum of l(i, q) · w(q, j);
  * the zero-safe root of a column s (sqrt s where s > 0, else 0) and the squared distance of two
    [4000, 3] blocks row by row, as columns, with their entries on the extended reals.
-/
import proofs.«401669_j7885559956062_3_alg».proof.Proof.BlockValue
import proofs.«401669_j7885559956062_3_alg».proof.Proof.Spec
import proofs.«401669_j7885559956062_3_alg».proof.Proof.LibKeepdims
import proofs.«401669_j7885559956062_3_alg».proof.Proof.LibMatmulPlain
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ## Layout and reduction steps read at (row, column) -/

/-- Four copies of a [4000, 3] block side by side read, at (r, j), the block at (r, j mod 3). -/
theorem concat4_apply {α : Type} (v : S4000x3.Idx → α)
    (h : Shape.Concatenates [S4000x3, S4000x3, S4000x3, S4000x3] S4000x12 1) (r : Fin 4000) (j : Fin 12) :
    concatenate S4000x12 1 [⟨S4000x3, v⟩, ⟨S4000x3, v⟩, ⟨S4000x3, v⟩, ⟨S4000x3, v⟩] h (ix2 r j)
      = v (ix2 r ⟨j.val % 3, Nat.mod_lt _ (by norm_num)⟩) :=
  concatenate_replicate_apply (t := S4000x12) (s₁ := S4000x3) 1 4 v h rfl (ix2 r j)
    (ix2 r ⟨j.val % 3, Nat.mod_lt _ (by norm_num)⟩) rfl
    (fun b hb => by
      match b, hb with
      | ⟨0, _⟩, _ => rfl
      | ⟨1, _⟩, hb => exact absurd rfl hb)

/-- Sixteen one-column blocks side by side read, at (r, k), block k at (r, 0). -/
theorem concat16_apply {α : Type} (c : Fin 16 → (S4000x1.Idx → α))
    (h : Shape.Concatenates [S4000x1, S4000x1, S4000x1, S4000x1, S4000x1, S4000x1, S4000x1, S4000x1, S4000x1, S4000x1, S4000x1, S4000x1, S4000x1, S4000x1, S4000x1, S4000x1] S4000x16 1)
    (r : Fin 4000) (k : Fin 16) :
    concatenate S4000x16 1 [⟨S4000x1, c 0⟩, ⟨S4000x1, c 1⟩, ⟨S4000x1, c 2⟩, ⟨S4000x1, c 3⟩, ⟨S4000x1, c 4⟩, ⟨S4000x1, c 5⟩, ⟨S4000x1, c 6⟩, ⟨S4000x1, c 7⟩,
      ⟨S4000x1, c 8⟩, ⟨S4000x1, c 9⟩, ⟨S4000x1, c 10⟩, ⟨S4000x1, c 11⟩, ⟨S4000x1, c 12⟩, ⟨S4000x1, c 13⟩, ⟨S4000x1, c 14⟩, ⟨S4000x1, c 15⟩] h (ix2 r k)
      = c k (ix2 r (0 : Fin 1)) :=
  concatenate_ofFn_unit_apply (t := S4000x16) (s₁ := S4000x1) 1 c h rfl rfl (ix2 r k) k rfl (ix2 r (0 : Fin 1))
    (fun b hb => by
      match b, hb with
      | ⟨0, _⟩, _ => rfl
      | ⟨1, _⟩, hb => exact absurd rfl hb)

/-- The sum along the rows of a [4000, n] block, kept as a column: at (r, u) the sum over k of the block at (r, k). -/
theorem rowsum_col_apply {n : ℕ} (V : FVec Ideal ⟨2, ![4000, n]⟩ .f32) (h : Shape.Reduces ⟨2, ![4000, n]⟩ [1] ⟨1, ![4000]⟩)
    (hφ : FKind.Formats .f32) (hacc : (0x00000000#32 : BitVec 32) = FKind.add.neutral .f32 hφ)
    (h' : (⟨1, ![4000]⟩ : Shape).ShapeCasts ⟨2, ![4000, 1]⟩) (r : Fin 4000) (u : Fin 1) :
    shapeCast ⟨2, ![4000, 1]⟩ (multiReduction .add [1] ⟨1, ![4000]⟩ V 0x00000000#32 h hφ hacc) h' (ix2 r u)
      = ∑ k : Fin n, V (ix2 r k) := by
  refine (Cert.LibKeepdims.shapeCast_a_a1_apply _ h' r u).trans ?_
  refine (Ideal.multiReduction_add_single V _ h hφ hacc (ix1 r)).trans ?_
  show ∑ k : Fin n, V (h.lift (ix1 r) k) = _
  refine Finset.sum_congr rfl fun k _ => congrArg V ?_
  funext a
  match a with
  | ⟨0, _⟩ => rfl
  | ⟨1, _⟩ => rfl

/-- A [64] vector laid as one row and repeated down 4000 rows reads, at (r, o), the vector at o. -/
theorem biasRow_apply {α : Type} (x : S64.Idx → α) (h1 : S64.ShapeCasts S1x64) (h2 : S1x64.Broadcasts S4000x64)
    (r : Fin 4000) (o : Fin 64) : broadcastTo S4000x64 (shapeCast S1x64 x h1) h2 (ix2 r o) = x (ix1 o) :=
  (broadcastTo_1b_ab_apply _ h2 r o).trans (shapeCast_a_1a_apply x h1 0 o)

/-- The [4000, 16] by [16, 64] product into zero, at (r, o): the sum over k of l(r, k) · w(k, o). -/
theorem matmulA_apply {φ₁ φ₂ : FTy} (l : FVec Ideal S4000x16 φ₁) (w : FVec Ideal S16x64 φ₂) (r : Fin 4000) (o : Fin 64) :
    matmul dot_S4000x16_S16x64_S4000x64_1_0_0_1_n_n none l w (constant (F := Ideal) S4000x64 .f32 0x00000000#32) (ix2 r o)
      = ∑ k : Fin 16, l (ix2 r k) * w (ix2 k o) :=
  Cert.LibMatmulPlain.matmul_plain_apply (M := 4000) (K := 16) (N := 64) l w r o

/-- The [4000, 64] by [64, 64] product into zero, at (r, p): the sum over o of l(r, o) · w(o, p). -/
theorem matmulB_apply {φ₁ φ₂ : FTy} (l : FVec Ideal S4000x64 φ₁) (w : FVec Ideal S64x64 φ₂) (r : Fin 4000) (p : Fin 64) :
    matmul dot_S4000x64_S64x64_S4000x64_1_0_0_1_n_n none l w (constant (F := Ideal) S4000x64 .f32 0x00000000#32) (ix2 r p)
      = ∑ o : Fin 64, l (ix2 r o) * w (ix2 o p) :=
  Cert.LibMatmulPlain.matmul_plain_apply (M := 4000) (K := 64) (N := 64) l w r p

/-! ## The zero-safe root of a squared distance, as columns -/

section Cols
variable {F : FTy → Type} [FloatOps F]

/-- The zero-safe root of a column, the comparison given: the root of (s where the bit is set, 1 elsewhere) where the bit is set, 0 elsewhere. -/
def rootSel (c : IVec S4000x1 1) (sq : FVec F S4000x1 .f32) : FVec F S4000x1 .f32 :=
  select c (sqrt (select c sq (broadcast S4000x1 (Scalar.ofBits .f32 0x3F800000#32)))) (broadcast S4000x1 (Scalar.ofBits .f32 0x00000000#32))

/-- The comparison s > 0 of a column. -/
def posCol (sq : FVec F S4000x1 .f32) : IVec S4000x1 1 := cmpf .ogt sq (broadcast S4000x1 (Scalar.ofBits .f32 0x00000000#32))

/-- The squared distance between two [4000, 3] blocks row by row, as a column. -/
def sqCol (va vb : FVec F S4000x3 .f32) : FVec F S4000x1 .f32 :=
  shapeCast S4000x1 (multiReduction .add [1] S4000 (mulf (subf va vb) (subf va vb)) 0x00000000#32 Facts₀.reduces_S4000x3_S4000 (.inl rfl) rfl)
    Facts₀.shapeCasts_S4000_S4000x1

end Cols

theorem rootSel_pos_apply (sq : FVec Ideal S4000x1 .f32) (i : S4000x1.Idx) :
    rootSel (posCol sq) sq i = Cert.VnFeat.root0 (sq i) := rfl

theorem sqCol_apply (va vb : FVec Ideal S4000x3 .f32) (r : Fin 4000) (u : Fin 1) :
    sqCol va vb (ix2 r u) = ∑ d : Fin 3, (va (ix2 r d) - vb (ix2 r d)) * (va (ix2 r d) - vb (ix2 r d)) :=
  rowsum_col_apply (n := 3) (mulf (subf va vb) (subf va vb)) _ _ _ _ r u

end Cert.KernelIdeal.RowValue

end
-- ==== Proof.RowDist.lean ====
/-
  A row's relative coordinates and its 16 pairwise distances.

  With u(j) = position(r, j mod 3) − gathered(r, j) the row's 12 relative coordinates, slice a of the
  difference block (columns 3a .. 3a+2) holds virtual node a's relative vector, u(3a + d). The squared
  distance of slices a and b at row r is the sum over d of (u(3a+d) − u(3b+d))², and the zero-safe root of it
  is the distance feature k = 4a + b before normalisation.
-/
import proofs.«401669_j7885559956062_3_alg».proof.Proof.RowReads
import proofs.«401669_j7885559956062_3_alg».proof.Proof.Spec

noncomputable section

open scoped BigOperators

namespace Cert.KernelIdeal.RowValue

open Cert.KernelIdeal Cert.KernelIdeal.Gen Idealize.ShloMosaic Idealize.ShloMosaic.ValueIdx

/-! ## The row's relative coordinates and its 16 distances -/

/-- Row r's 12 relative coordinates: the position repeated four times minus the gathered row. -/
abbrev relRow (g : FVec Ideal S4000x12 .f32) (x0 : Vec Ideal S4000x3 .f32) (r : Fin 4000) : Fin 12 → EReal :=
  fun j => x0 (ix2 r ⟨j.val % 3, by omega⟩) - g (ix2 r j)

theorem pay4_apply (g : FVec Ideal S4000x12 .f32) (x0 : Vec Ideal S4000x3 .f32) (r : Fin 4000) (j : Fin 12) :
    k0_pay4 g x0 (ix2 r j) = relRow g x0 r j :=
  congrArg (· - g (ix2 r j)) (concat4_apply x0 Facts₀.concatenates_S4000x3_S4000x3_S4000x3_S4000x3_S4000x12_d1 r j)

open Cert.VnFeat in
theorem pay5_apply (g : FVec Ideal S4000x12 .f32) (x0 : Vec Ideal S4000x3 .f32) (r : Fin 4000) (d : Fin 3) :
    k0_pay5 g x0 (ix2 r d) = relRow g x0 r (c3 0 d) :=
  (slice2_axis1_apply 0 (k0_pay4 g x0) Facts₀.slices_S4000x12_o0_0_S4000x3 r d (c3 0 d) (by show 3 * 0 + d.val = 0 + d.val; omega)).trans (pay4_apply g x0 r _)

open Cert.VnFeat in
theorem pay6_apply (g : FVec Ideal S4000x12 .f32) (x0 : Vec Ideal S4000x3 .f32) (r : Fin 4000) (d : Fin 3) :
    k0_pay6 g x0 (ix2 r d) = relRow g x0 r (c3 1 d) :=
  (slice2_axis1_apply 3 (k0_pay4 g x0) Facts₀.slices_S4000x12_o0_3_S4000x3 r d (c3 1 d) (by show 3 * 1 + d.val = 3 + d.val; omega)).trans (pay4_apply g x0 r _)

open Cert.VnFeat in
theorem pay7_apply (g : FVec Ideal S4000x12 .f32) (x0 : Vec Ideal S4000x3 .f32) (r : Fin 4000) (d : Fin 3) :
    k0_pay7 g x0 (ix2 r d) = relRow g x0 r (c3 2 d) :=
  (slice2_axis1_apply 6 (k0_pay4 g x0) Facts₀.slices_S4000x12_o0_6_S4000x3 r d (c3 2 d) (by show 3 * 2 + d.val = 6 + d.val; omega)).trans (pay4_apply g x0 r _)

open Cert.VnFeat in
theorem pay8_apply (g : FVec Ideal S4000x12 .f32) (x0 : Vec Ideal S4000x3 .f32) (r : Fin 4000) (d : Fin 3) :
    k0_pay8 g x0 (ix2 r d) = relRow g x0 r (c3 3 d) :=
  (slice2_axis1_apply 9 (k0_pay4 g x0) Facts₀.slices_S4000x12_o0_9_S4000x3 r d (c3 3 d) (by show 3 * 3 + d.val = 9 + d.val; omega)).trans (pay4_apply g x0 r _)

/-- The four 3-column slices: slice a holds virtual node a's relative vector. -/
def part (g : FVec Ideal S4000x12 .f32) (x0 : Vec Ideal S4000x3 .f32) : Fin 4 → FVec Ideal S4000x3 .f32 :=
  ![k0_pay5 g x0, k0_pay6 g x0, k0_pay7 g x0, k0_pay8 g x0]

theorem part_apply (g : FVec Ideal S4000x12 .f32) (x0 : Vec Ideal S4000x3 .f32) (r : Fin 4000) (a : Fin 4) (d : Fin 3) :
    part g x0 a (ix2 r d) = relRow g x0 r (Cert.VnFeat.c3 a d) := by
  match a with
  | ⟨0, _⟩ => exact pay5_apply g x0 r d
  | ⟨1, _⟩ => exact pay6_apply g x0 r d
  | ⟨2, _⟩ => exact pay7_apply g x0 r d
  | ⟨3, _⟩ => exact pay8_apply g x0 r d

/-- Column k = 4a + b of the features before normalisation: the zero-safe root of the squared distance of slices a and b. -/
def cols (g : FVec Ideal S4000x12 .f32) (x0 : Vec Ideal S4000x3 .f32) (k : Fin 16) : FVec Ideal S4000x1 .f32 :=
  rootSel (posCol (sqCol (part g x0 ⟨k.val / 4, by omega⟩) (part g x0 ⟨k.val % 4, by omega⟩)))
    (sqCol (part g x0 ⟨k.val / 4, by omega⟩) (part g x0 ⟨k.val % 4, by omega⟩))

theorem cols_apply (g : FVec Ideal S4000x12 .f32) (x0 : Vec Ideal S4000x3 .f32) (r : Fin 4000) (k : Fin 16) (u : Fin 1) :
    cols g x0 k (ix2 r u) = Cert.VnFeat.pd (relRow g x0 r) k :=
  congrArg Cert.VnFeat.root0 ((sqCol_apply _ _ r u).trans
    (Finset.sum_congr rfl fun d _ => by rw [part_apply, part_apply]))

end Cert.KernelIdeal.RowValue

end
-- ==== Proof.RowTail.lean ====
/-
  Normalisation and the two layers over an arbitrary [4000, 16] block V of features.

  Entry (r, k) of the normalised block is V(r, k) / (sqrt(sum over k' of V(r, k')²) + 0.001); the hidden block at
  (r, o) is the sum over k of that against the first weight plus the first bias; the output before its bias at
  (r, p) is the sum over o of x · logistic x of the hidden entry against the second weight. The changes of float
  format in between are the identity on the extended reals.
-/
import proofs.«401669_j7885559956062_3_alg».proof.Proof.RowReads
import proofs.«401669_j7885559956062_3_alg».proof.Proof.Spec

noncomputable section

open scoped BigOperators

namespace Cert.KernelIdeal.RowValue

open Cert.KernelIdeal Cert.KernelIdeal.Gen Idealize.ShloMosaic Idealize.ShloMosaic.ValueIdx

/-! ## Normalisation and the two layers, over a variable block of 16 columns -/

section Tail
variable {F : FTy → Type} [FloatOps F]

/-- Each of a row's 16 entries divided by (the root of the sum of their squares plus the small constant). -/
def normDiv (V : FVec F S4000x16 .f32) : FVec F S4000x16 .f32 :=
  divf V (broadcastTo S4000x16
    (addf (sqrt (shapeCast S4000x1 (multiReduction .add [1] S4000 (mulf V V) 0x00000000#32 Facts₀.reduces_S4000x16_S4000 (.inl rfl) rfl)
        Facts₀.shapeCasts_S4000_S4000x1))
      (broadcast S4000x1 (Scalar.ofBits .f32 0x3A83126F#32)))
    Facts₀.broadcasts_S4000x1_S4000x16)

/-- The first layer: the features against the [16, 64] weight, plus the bias repeated down the rows. -/
def hidden (Ft : FVec F S4000x16 .f32) (x3 : Vec F S16x64 .f32) (x4 : Vec F S64 .f32) : FVec F S4000x64 .f32 :=
  addf (matmul dot_S4000x16_S16x64_S4000x64_1_0_0_1_n_n none (truncf .bf16 Ft Facts₀.bitsLt_bf16_f32)
      (truncf .bf16 (shapeCast S16x64 x3 Facts₀.shapeCasts_S16x64_S16x64) Facts₀.bitsLt_bf16_f32) (constant S4000x64 .f32 0x00000000#32))
    (broadcastTo S4000x64 (shapeCast S1x64 x4 Facts₀.shapeCasts_S64_S1x64) Facts₀.broadcasts_S1x64_S4000x64)

/-- The second layer before its bias: x · logistic x of the hidden block against the [64, 64] weight. -/
def outMat (H : FVec F S4000x64 .f32) (x5 : Vec F S64x64 .f32) : FVec F S4000x64 .f32 :=
  matmul dot_S4000x64_S64x64_S4000x64_1_0_0_1_n_n none (truncf .bf16 (mulf H (logistic H)) Facts₀.bitsLt_bf16_f32)
    (truncf .bf16 (shapeCast S64x64 x5 Facts₀.shapeCasts_S64x64_S64x64) Facts₀.bitsLt_bf16_f32) (constant S4000x64 .f32 0x00000000#32)

end Tail

theorem normDiv_apply (V : FVec Ideal S4000x16 .f32) (r : Fin 4000) (k : Fin 16) :
    normDiv V (ix2 r k)
      = Ideal.div (V (ix2 r k)) (Ideal.sqrt (∑ k' : Fin 16, V (ix2 r k') * V (ix2 r k')) + Cert.VnFeat.epsW) :=
  congrArg (Ideal.div (V (ix2 r k))) ((Cert.LibKeepdims.broadcastTo_a1_ab_apply _ Facts₀.broadcasts_S4000x1_S4000x16 r k).trans
    (congrArg (fun s => Ideal.sqrt s + Cert.VnFeat.epsW)
      (rowsum_col_apply (n := 16) (mulf V V) Facts₀.reduces_S4000x16_S4000 (.inl rfl) rfl Facts₀.shapeCasts_S4000_S4000x1 r 0)))

theorem hidden_apply (Ft : FVec Ideal S4000x16 .f32) (x3 : Vec Ideal S16x64 .f32) (x4 : Vec Ideal S64 .f32) (r : Fin 4000) (o : Fin 64) :
    hidden Ft x3 x4 (ix2 r o) = (∑ k : Fin 16, Ft (ix2 r k) * x3 (ix2 k o)) + x4 (ix1 o) := by
  show matmul _ none _ _ _ (ix2 r o) + broadcastTo S4000x64 _ _ (ix2 r o) = _
  rw [matmulA_apply, biasRow_apply, shapeCast_self]
  rfl

theorem outMat_apply (H : FVec Ideal S4000x64 .f32) (x5 : Vec Ideal S64x64 .f32) (r : Fin 4000) (p : Fin 64) :
    outMat H x5 (ix2 r p) = ∑ o : Fin 64, Cert.VnFeat.act (H (ix2 r o)) * x5 (ix2 o p) := by
  show matmul _ none _ _ _ (ix2 r p) = _
  rw [matmulB_apply, shapeCast_self]
  rfl

end Cert.KernelIdeal.RowValue

end
-- ==== Proof.RowOut.lean ====
/-
  The block one grid point stores, read at (r, p): output p of row r's perceptron over its normalised
  distance features.

  The stored block is, as a term, the two layers over the normalised block of the 16 distance columns, plus the
  second bias repeated down the rows. Column k of the distance block at row r is the distance feature k of the
  row's relative coordinates, so reading the layers entry by entry gives the row function of the specification.
-/
import proofs.«401669_j7885559956062_3_alg».proof.Proof.BlockValue
import proofs.«401669_j7885559956062_3_alg».proof.Proof.Spec
import proofs.«401669_j7885559956062_3_alg».proof.Proof.RowDist
import proofs.«401669_j7885559956062_3_alg».proof.Proof.RowTail

noncomputable section

open scoped BigOperators

namespace Cert.KernelIdeal.RowValue

open Cert.KernelIdeal Cert.KernelIdeal.Gen Idealize.ShloMosaic Idealize.ShloMosaic.ValueIdx

/-! ## The stored block at (r, p) -/

/-- The 16 distance columns side by side. -/
def distBlock (g : FVec Ideal S4000x12 .f32) (x0 : Vec Ideal S4000x3 .f32) : FVec Ideal S4000x16 .f32 :=
  concatenate S4000x16 1 [⟨S4000x1, cols g x0 0⟩, ⟨S4000x1, cols g x0 1⟩, ⟨S4000x1, cols g x0 2⟩, ⟨S4000x1, cols g x0 3⟩,
    ⟨S4000x1, cols g x0 4⟩, ⟨S4000x1, cols g x0 5⟩, ⟨S4000x1, cols g x0 6⟩, ⟨S4000x1, cols g x0 7⟩,
    ⟨S4000x1, cols g x0 8⟩, ⟨S4000x1, cols g x0 9⟩, ⟨S4000x1, cols g x0 10⟩, ⟨S4000x1, cols g x0 11⟩,
    ⟨S4000x1, cols g x0 12⟩, ⟨S4000x1, cols g x0 13⟩, ⟨S4000x1, cols g x0 14⟩, ⟨S4000x1, cols g x0 15⟩]
    Facts₀.concatenates_S4000x1_S4000x1_S4000x1_S4000x1_S4000x1_S4000x1_S4000x1_S4000x1_S4000x1_S4000x1_S4000x1_S4000x1_S4000x1_S4000x1_S4000x1_S4000x1_S4000x16_d1

theorem distBlock_apply (g : FVec Ideal S4000x12 .f32) (x0 : Vec Ideal S4000x3 .f32) (r : Fin 4000) (k : Fin 16) :
    distBlock g x0 (ix2 r k) = Cert.VnFeat.pd (relRow g x0 r) k :=
  (concat16_apply (cols g x0) _ r k).trans (cols_apply g x0 r k 0)

/-- The stored block is the two layers over the normalised distance block, plus the second bias. -/
theorem blockVal_eq (g : FVec Ideal S4000x12 .f32) (x0 : Vec Ideal S4000x3 .f32) (x3 : Vec Ideal S16x64 .f32) (x4 : Vec Ideal S64 .f32)
    (x5 : Vec Ideal S64x64 .f32) (x6 : Vec Ideal S64 .f32) :
    blockVal (F := Ideal) g x0 x3 x4 x5 x6
      = addf (outMat (hidden (normDiv (distBlock g x0)) x3 x4) x5)
          (broadcastTo S4000x64 (shapeCast S1x64 x6 Facts₀.shapeCasts_S64_S1x64) Facts₀.broadcasts_S1x64_S4000x64) := rfl

theorem blockVal_apply (g : FVec Ideal S4000x12 .f32) (x0 : Vec Ideal S4000x3 .f32) (x3 : Vec Ideal S16x64 .f32) (x4 : Vec Ideal S64 .f32)
    (x5 : Vec Ideal S64x64 .f32) (x6 : Vec Ideal S64 .f32) (r : Fin 4000) (p : Fin 64) :
    blockVal (F := Ideal) g x0 x3 x4 x5 x6 (ix2 r p)
      = Cert.VnFeat.outRow (fun j => x0 (ix2 r ⟨j.val % 3, by omega⟩) - g (ix2 r j)) (fun k o => x3 (ix2 k o)) (fun o => x4 (ix1 o))
          (fun o p => x5 (ix2 o p)) (fun p => x6 (ix1 p)) p := by
  rw [blockVal_eq]
  show outMat _ x5 (ix2 r p) + broadcastTo S4000x64 _ _ (ix2 r p) = _
  rw [outMat_apply, biasRow_apply]
  unfold Cert.VnFeat.outRow Cert.VnFeat.hid Cert.VnFeat.feat Cert.VnFeat.nrm
  simp only [hidden_apply, normDiv_apply, distBlock_apply]

end Cert.KernelIdeal.RowValue

end
-- ==== Proof.KernelArray.lean ====
/-
  The kernel's result array is the specified function of its argument arrays.

  Grid point t handles rows 4000 t … 4000 t + 3999: its position block and its group-word block are those rows of
  node_pos and of the batch column, the table, the two transposed weights and the two biases are whole at every
  point, and what the point writes back is block t of the result.  Row by row the block value is the specification's
  outRow, the gathered row being the table row the group word names (the word is below 8192 by the precondition).
  The 250 blocks tile the 1000000 rows.
-/
import proofs.«401669_j7885559956062_3_alg».proof.Proof.Gen.KernelIdeal.Value
import proofs.«401669_j7885559956062_3_alg».proof.Proof.BlockRun
import proofs.«401669_j7885559956062_3_alg».proof.Proof.ChunkGather
import proofs.«401669_j7885559956062_3_alg».proof.Proof.RowOut
import proofs.«401669_j7885559956062_3_alg».proof.Proof.Spec
import Idealize.ShloMosaic.Lib.Pipeline.Value
import Idealize.ShloMosaic.Lib.StableHlo.Run
import Idealize.ShloMosaic.Lib.ValueIdx

noncomputable section

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The arrays the region finds -/

/-- The group-word column is the batch vector recast to [1000000, 1]. -/
theorem V_words (c : Dev nD) : (V m c main_v0 : S1000000x1.Idx → Elt F .i32)
    = shapeCast S1000000x1 (m ((c : Thread nD τ).loc main_arg3)) shapeCasts_S1000000_S1000000x1 := by
  dsimp only [Gen.V, Gen.hostOps0]; after_results; rfl

/-- The first weight as the region finds it: W1 transposed to [16, 64]. -/
theorem V_w1 (c : Dev nD) : (V m c main_v1 : S16x64.Idx → Elt F .f32)
    = transpose S16x64 [1, 0] (m ((c : Thread nD τ).loc main_arg4)) transposes_S64x16_S16x64_1_0 := by
  dsimp only [Gen.V, Gen.hostOps0]; after_results

/-- The second weight as the region finds it: W2 transposed. -/
theorem V_w2 (c : Dev nD) : (V m c main_v2 : S64x64.Idx → Elt F .f32)
    = transpose S64x64 [1, 0] (m ((c : Thread nD τ).loc main_arg6)) transposes_S64x64_S64x64_1_0 := by
  dsimp only [Gen.V, Gen.hostOps0]; after_results

/-- The block indices, decided over the 250 points: the position, group-word and result windows move with the point,
    the others stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row r of point t is row 4000 t + r of the arrays. -/
theorem row_lt (t : Fin cfg0.N) (r : Fin 4000) : 4000 * t.val + r.val < 1000000 := by
  have hN : cfg0.N = 250 := N_0
  have := t.isLt; have := r.isLt; omega

/-! ## The input blocks, entry by entry -/

abbrev posBlk (c : Dev nD) (t : Fin cfg0.N) : Vec F S4000x3 .f32 := iblk m c 0 t
abbrev wordBlk (c : Dev nD) (t : Fin cfg0.N) : Vec F S4000x1 .i32 := iblk m c 1 t
abbrev tblBlk (c : Dev nD) (t : Fin cfg0.N) : Vec F S8192x12 .f32 := iblk m c 2 t
abbrev w1Blk (c : Dev nD) (t : Fin cfg0.N) : Vec F S16x64 .f32 := iblk m c 3 t
abbrev b1Blk (c : Dev nD) (t : Fin cfg0.N) : Vec F S64 .f32 := iblk m c 4 t
abbrev w2Blk (c : Dev nD) (t : Fin cfg0.N) : Vec F S64x64 .f32 := iblk m c 5 t
abbrev b2Blk (c : Dev nD) (t : Fin cfg0.N) : Vec F S64 .f32 := iblk m c 6 t

theorem posBlk_apply (c : Dev nD) (t : Fin cfg0.N) (r : Fin 4000) (d : Fin 3) :
    posBlk m c t (ix2 r d) = m ((c : Thread nD τ).loc main_arg1) (ix2 ⟨4000 * t.val + r.val, row_lt t r⟩ d) := by
  show V m c main_arg1 (((cfg0.win 0).blk t).view.emb (ix2 r d)) = _
  rw [V_main_arg1]
  refine congrArg _ (funext fun a => Fin.ext ?_)
  obtain ⟨e0, e1, -⟩ := idx_facts t
  match a with
  | ⟨0, _⟩ => show win0_0.index t (0 : Fin 2) * 4000 + 1 * r.val = 4000 * t.val + r.val; omega
  | ⟨1, _⟩ => show win0_0.index t (1 : Fin 2) * 3 + 1 * d.val = d.val; omega

theorem wordBlk_apply (c : Dev nD) (t : Fin cfg0.N) (r : Fin 4000) :
    wordBlk m c t (ix2 r 0) = m ((c : Thread nD τ).loc main_arg3) (ix1 ⟨4000 * t.val + r.val, row_lt t r⟩) := by
  show V m c main_v0 (((cfg0.win 1).blk t).view.emb (ix2 r 0)) = _
  rw [V_words]
  obtain ⟨-, -, e0, e1, -⟩ := idx_facts t
  refine shapeCast_apply _ _ _ _ ?_
  show ((⟨1, ![1000000]⟩ : Shape).rowMajor (ix1 ⟨4000 * t.val + r.val, row_lt t r⟩)).val
    = ((⟨2, ![1000000, 1]⟩ : Shape).rowMajor (((cfg0.win 1).blk t).view.emb (ix2 r 0))).val
  rw [Shape.rowMajor_val_one, Shape.rowMajor_val_two]
  show 4000 * t.val + r.val = (win0_1.index t (0 : Fin 2) * 4000 + 1 * r.val) * 1 + (win0_1.index t (1 : Fin 2) * 1 + 1 * 0)
  omega

theorem tblBlk_eq (c : Dev nD) (t : Fin cfg0.N) : tblBlk m c t = m ((c : Thread nD τ).loc main_arg2) := by
  funext y
  show V m c main_arg2 (((cfg0.win 2).blk t).view.emb y) = _
  rw [V_main_arg2]
  refine congrArg _ (funext fun a => Fin.ext ?_)
  obtain ⟨-, -, -, -, e0, e1, -⟩ := idx_facts t
  match a with
  | ⟨0, _⟩ => show win0_2.index t (0 : Fin 2) * 8192 + 1 * (y 0).val = (y 0).val; omega
  | ⟨1, _⟩ => show win0_2.index t (1 : Fin 2) * 12 + 1 * (y 1).val = (y 1).val; omega

theorem w1Blk_apply (c : Dev nD) (t : Fin cfg0.N) (k : Fin 16) (o : Fin 64) :
    w1Blk m c t (ix2 k o) = m ((c : Thread nD τ).loc main_arg4) (ix2 o k) := by
  show V m c main_v1 (((cfg0.win 3).blk t).view.emb (ix2 k o)) = _
  rw [V_w1]
  obtain ⟨-, -, -, -, -, -, e0, e1, -⟩ := idx_facts t
  refine transpose_apply _ _ _ _ _ (fun b => ?_)
  match b with
  | ⟨0, _⟩ => show k.val = win0_3.index t (0 : Fin 2) * 16 + 1 * k.val; omega
  | ⟨1, _⟩ => show o.val = win0_3.index t (1 : Fin 2) * 64 + 1 * o.val; omega

theorem b1Blk_apply (c : Dev nD) (t : Fin cfg0.N) (o : Fin 64) :
    b1Blk m c t (ix1 o) = m ((c : Thread nD τ).loc main_arg5) (ix1 o) := by
  show V m c main_arg5 (((cfg0.win 4).blk t).view.emb (ix1 o)) = _
  rw [V_main_arg5]
  refine congrArg _ (funext fun a => Fin.ext ?_)
  obtain ⟨-, -, -, -, -, -, -, -, e0, -⟩ := idx_facts t
  match a with
  | ⟨0, _⟩ => show win0_4.index t (0 : Fin 1) * 64 + 1 * o.val = o.val; omega

theorem w2Blk_apply (c : Dev nD) (t : Fin cfg0.N) (o p : Fin 64) :
    w2Blk m c t (ix2 o p) = m ((c : Thread nD τ).loc main_arg6) (ix2 p o) := by
  show V m c main_v2 (((cfg0.win 5).blk t).view.emb (ix2 o p)) = _
  rw [V_w2]
  obtain ⟨-, -, -, -, -, -, -, -, -, e0, e1, -⟩ := idx_facts t
  refine transpose_apply _ _ _ _ _ (fun b => ?_)
  match b with
  | ⟨0, _⟩ => show o.val = win0_5.index t (0 : Fin 2) * 64 + 1 * o.val; omega
  | ⟨1, _⟩ => show p.val = win0_5.index t (1 : Fin 2) * 64 + 1 * p.val; omega

theorem b2Blk_apply (c : Dev nD) (t : Fin cfg0.N) (p : Fin 64) :
    b2Blk m c t (ix1 p) = m ((c : Thread nD τ).loc main_arg7) (ix1 p) := by
  show V m c main_arg7 (((cfg0.win 6).blk t).view.emb (ix1 p)) = _
  rw [V_main_arg7]
  refine congrArg _ (funext fun a => Fin.ext ?_)
  obtain ⟨-, -, -, -, -, -, -, -, -, -, -, e0, -⟩ := idx_facts t
  match a with
  | ⟨0, _⟩ => show win0_6.index t (0 : Fin 1) * 64 + 1 * p.val = p.val; omega

end Cert.KernelIdeal.RowValue

/-! ## What a point writes back, the cover, and the array -/

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specified result over the argument arrays of core c. -/
abbrev Garr (c : Dev nD) : S1000000x64.Idx → EReal :=
  Cert.VnFeat.G (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- Element (r, p) of the result block at point t sits at (4000 t + r, p) of the array. -/
theorem out_emb (t : Fin cfg0.N) (r : Fin 4000) (p : Fin 64) :
    ((cfg0.win 7).blk t).view.emb (ix2 r p) = ix2 ⟨4000 * t.val + r.val, row_lt t r⟩ p := by
  obtain ⟨-, -, -, -, -, -, -, -, -, -, -, -, e0, e1⟩ := idx_facts t
  funext a
  refine Fin.ext ?_
  match a with
  | ⟨0, _⟩ => show win0_7.index t (0 : Fin 2) * 4000 + 1 * r.val = 4000 * t.val + r.val; omega
  | ⟨1, _⟩ => show win0_7.index t (1 : Fin 2) * 64 + 1 * p.val = p.val; omega

/-- WHAT POINT t WRITES BACK is block t of the specified result, when every group word is a row of the table. -/
theorem flushed_eq (c : Dev nD) (hb : ∀ n : Fin 1000000, (m ((c : Thread nD τ).loc main_arg3) (ix1 n)).toNat < 8192) (t : Fin cfg0.N) :
    (dats m 0 c).flushed 7 t = ((cfg0.win 7).blk t).view.read (Elt Ideal) (Garr m c) := by
  rw [Value.flushed7_A, out_eq, st_eq_fold]
  funext y
  obtain ⟨r, p, rfl⟩ : ∃ (r : Fin 4000) (p : Fin 64), y = ix2 r p := ⟨y 0, y 1, eq_ix2 y⟩
  show blockVal (chunkFold (wordBlk m c t) (chunkOf (tblBlk m c t)) k0_t1_loop.trips) (posBlk m c t) (w1Blk m c t) (b1Blk m c t)
      (w2Blk m c t) (b2Blk m c t) (ix2 r p) = Garr m c (((cfg0.win 7).blk t).view.emb (ix2 r p))
  rw [out_emb, blockVal_apply]
  unfold Garr
  rw [Cert.VnFeat.G_apply]
  have hw : (wordBlk m c t (ix2 r 0)).toNat < 8192 := by rw [wordBlk_apply]; exact hb _
  have hu : (fun j : Fin 12 => posBlk m c t (ix2 r ⟨j.val % 3, by omega⟩)
        - chunkFold (wordBlk m c t) (chunkOf (tblBlk m c t)) k0_t1_loop.trips (ix2 r j))
      = Cert.VnFeat.relv (m ((c : Thread nD τ).loc main_arg1)) (m ((c : Thread nD τ).loc main_arg2)) (m ((c : Thread nD τ).loc main_arg3))
          ⟨4000 * t.val + r.val, row_lt t r⟩ := by
    funext j
    rw [posBlk_apply, chunkFold_gather (wordBlk m c t) (tblBlk m c t) (chunkOf (tblBlk m c t))
      (fun k q j h => chunkOf_apply (tblBlk m c t) k q j h) r j hw, tblBlk_eq]
    unfold Cert.VnFeat.relv
    congr 2
    refine congrArg (fun a => ix2 a j) (Fin.ext ?_)
    show (wordBlk m c t (ix2 r 0)).toNat = (m ((c : Thread nD τ).loc main_arg3) (ix1 ⟨4000 * t.val + r.val, row_lt t r⟩)).toNat % 8192
    rw [wordBlk_apply, Nat.mod_eq_of_lt (hb _)]
  rw [hu]
  congr 1
  · funext k o; exact w1Blk_apply m c t k o
  · funext o; exact b1Blk_apply m c t o
  · funext o p; exact w2Blk_apply m c t o p
  · funext p; exact b2Blk_apply m c t p

/-- An index of the array is in point t's block iff each coordinate is in the block's range on its axis. -/
theorem mem_blk (t : Fin cfg0.N) (i : S1000000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v3).slice (win0_7.rect t)).set ↔ _
  rw [View.set_slice_whole, Rect.mem_set_unit]
  exact Iff.rfl

/-- The 250 blocks of 4000 rows tile the array: row n lies in block n / 4000. -/
theorem cover (i : S1000000x64.Idx) :
    ∃ t : Fin cfg0.N, (cfg0.win 7).flush t = true ∧ i ∈ ((cfg0.win 7).blk t).view.set := by
  have hN : cfg0.N = 250 := N_0
  have hi0 : (i 0).val < 1000000 := (i 0).isLt
  have hi1 : (i 1).val < 64 := (i 1).isLt
  have ht : (i 0).val / 4000 < cfg0.N := by omega
  refine ⟨⟨(i 0).val / 4000, ht⟩, flush0_7 _, ?_⟩
  rw [mem_blk]
  obtain ⟨-, -, -, -, -, -, -, -, -, -, -, -, e0, e1⟩ := idx_facts ⟨(i 0).val / 4000, ht⟩
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_7.index ⟨(i 0).val / 4000, ht⟩ (1 : Fin 2) * 64 ≤ (i 1).val
      ∧ (i 1).val < win0_7.index ⟨(i 0).val / 4000, ht⟩ (1 : Fin 2) * 64 + 64
    rw [e1]
    omega

/-- THE ARRAY after the run is the specified result. -/
theorem final (c : Dev nD) (hb : ∀ n : Fin 1000000, (m ((c : Thread nD τ).loc main_arg3) (ix1 n)).toNat < 8192) :
    (dats m 0 c).arrAt 7 cfg0.N = Garr m c :=
  (dats m 0 c).arrAt_eq_of_cover 7 (Garr m c) (fun t _ => flushed_eq m c hb t) cover

/-- The kernel's run re-posted: the result array at the specified function of the arguments, the arguments unchanged. -/
theorem run (hb : ∀ (c : Dev nD) (n : Fin 1000000), (m ((c : Thread nD τ).loc main_arg3) (ix1 n)).toNat < 8192) :
    θ_run defs (onTc (τ := τ) (main (F := Ideal))) ⟨m, fun _ => 0, ρ⟩ fun r => ∀ c : Dev nD,
      r.2.mem ((c : Thread nD τ).loc main_v3) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hb c)), (h c).2⟩) (Value.run_blocks m ρ)

end Cert.KernelIdeal.RowValue

end
-- ==== Proof.LibTakeRows.lean ====
/-
  A row gather read at an index.

  What `table[idx]` of a rank-2 table `[N, C]` at a column of row numbers `idx : [R, 1]` lowers to:
  `stablehlo.gather` with offset_dims `[1]`, collapsed_slice_dims `[0]`, no batching axes, start_index_map `[0]`,
  index_vector_dim `1` and slice_sizes `[1, C]`. Result element `(r, j)` is the table at row `idx[r, 0]`, read as a
  signed integer and clamped into `[0, N − 1]` (the gather clamps every start index so that its slice fits), and
  column `j`: the only offset axis of the result is its second, and it runs over the one operand axis that is kept whole.
-/
import Idealize.ShloMosaic.Lib.ValueIdx

noncomputable section

namespace Cert.LibTakeRows

open Idealize.ShloMosaic Idealize.ShloMosaic.ValueIdx

variable {α : Type}

/-- The dimension numbers of a row gather for a table `[N, C]`, start indices `[R, 1]` and result `[R, C]`; their
    conditions `wf` are decided on a program's literal shapes. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, j)`. -/
abbrev rowIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (y : (⟨2, ![R, C]⟩ : Shape).Idx)

/-- The row axis of the operand index: collapsed, so it takes no offset; named by the start index map, so it is the
    start index `idx[r, 0]` read signed and clamped so that the one-row slice fits. -/
theorem operandIdx_row :
    ((rowsDims N C R wf).operandIdx y idx 0).val = min (idx (rowIdx y)).toInt.toNat (N - 1) := by
  show (rowsDims N C R wf).start y idx 0 + (rowsDims N C R wf).batchCoord y 0 + (rowsDims N C R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N C R wf).startIndexMap from List.mem_singleton.mpr rfl)]
  have hsi : (rowsDims N C R wf).siIdx y ⟨List.idxOf (0 : Fin 2) (rowsDims N C R wf).startIndexMap,
      List.idxOf_lt_length_iff.2 (List.mem_singleton.mpr rfl)⟩ = rowIdx y := by
    funext b; refine Fin.ext ?_
    match b with
    | ⟨0, _⟩ => rfl
    | ⟨1, _⟩ => rfl
  rw [hsi]
  rfl

/-- The column axis of the operand index: not named by the start index map, so its slice starts at 0; kept whole, so
    it takes the result's coordinate on the one offset axis. -/
theorem operandIdx_col :
    ((rowsDims N C R wf).operandIdx y idx 1).val = (y 1).val := by
  show (rowsDims N C R wf).start y idx 1 + (rowsDims N C R wf).batchCoord y 1 + (rowsDims N C R wf).offCoord y 1 = _
  rw [GatherDims.batchCoord_eq_zero _ _ _ List.not_mem_nil]
  unfold GatherDims.start
  rw [dif_neg (show ¬ (1 : Fin 2) ∈ (rowsDims N C R wf).startIndexMap from
    fun h => absurd (congrArg Fin.val (List.mem_singleton.mp h)) Nat.one_ne_zero)]
  simp only [Nat.add_zero, Nat.zero_add]
  unfold GatherDims.offCoord
  rw [dif_pos (show (1 : Fin 2) ∈ (rowsDims N C R wf).sKept from
    (GatherDims.mem_sKept _ _).mpr
      ⟨fun h => absurd (congrArg Fin.val (List.mem_singleton.mp h)) Nat.one_ne_zero, List.not_mem_nil⟩)]
  rfl

end

/-- THE ROW GATHER READ AT `(r, j)`: the table at the start index `idx[r, 0]`, read signed and clamped into
    `[0, N − 1]`, and column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N C R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ => exact operandIdx_row wf idx y
  | ⟨1, _⟩ => exact operandIdx_col wf idx y

end Cert.LibTakeRows

end
-- ==== Proof.RefValue.lean ====
/-
  The reference program's result is the specification G, entry by entry.

  The reference's chain of operations is read at an index, stage by stage: the gathered group row (a batch word below
  8192 is not negative, so the select that wraps negative words keeps it, and the gather's clamp into [0, 8191] keeps it
  too), the twelve relative coordinates, the sixteen squared distances and their zero-safe roots, the norm, the
  normalised features, the hidden layer with the activation x * logistic x (written out as x * (1 / (1 + exp (-x)))),
  and the output layer.
-/
import proofs.«401669_j7885559956062_3_alg».proof.Proof.Gen.ReferenceIdeal.Read
import proofs.«401669_j7885559956062_3_alg».proof.Proof.Spec
import proofs.«401669_j7885559956062_3_alg».proof.Proof.LibTakeRows

noncomputable section

open scoped BigOperators

namespace Cert.ReferenceIdeal.RefValue

open Cert.ReferenceIdeal Cert.ReferenceIdeal.Read Cert.VnFeat Idealize.ShloMosaic Idealize.ShloMosaic.ValueIdx

/-! ## The gathered row -/

/-- A batch word below 8192 is not negative as a signed word, so the select that adds 8192 to negative words keeps it. -/
theorem start_word (x3 : (⟨S1000000, .i32⟩ : BufTy).Contents (Elt Ideal)) (n : Fin 1000000)
    (hb : (x3 (ix1 n)).toNat < 8192) :
    val_main_v7 (F := Ideal) x3 (ix1 n) = x3 (ix1 n) := by
  rw [val_main_v7_apply, val_main_v4_apply, val_main_v3_apply, val_main_c_apply]
  have h1 : (x3 (ix1 n)).toInt = ((x3 (ix1 n)).toNat : Int) := BitVec.toInt_eq_toNat_of_lt (by omega)
  have h2 : IntOp.cmpi .slt (x3 (ix1 n)) 0#32 = 0#1 := by
    unfold IntOp.cmpi
    have : (x3 (ix1 n)).slt 0#32 = false := by
      simp only [BitVec.slt, h1, BitVec.toInt_zero]
      simp
    simp only [this]
    rfl
  rw [h2, select_zero]

/-- The program's gather is the row gather of an [8192, 12] table at a [1000000, 1] column of start indices. -/
theorem gather_apply (x2 : (⟨S8192x12, .f32⟩ : BufTy).Contents (Elt Ideal))
    (idx : (⟨S1000000x1, .i32⟩ : BufTy).Contents (Elt Ideal)) (y : S1000000x12.Idx) :
    Host.gather gather_S8192x12_S1000000x1_S1000000x12_1_0_n_n_0_1_112 x2 idx y
      = x2 (ix2 ⟨min (idx (Cert.LibTakeRows.rowIdx y)).toInt.toNat (8192 - 1), by omega⟩ ⟨(y 1).val, idx2_lt1 y⟩) :=
  Cert.LibTakeRows.gather_rows_apply (N := 8192) (C := 12) (R := 1000000) (by decide) _ x2 idx y

/-- Under the range hypothesis the gather reads the group row the batch word names. -/
theorem gathered (x2 : (⟨S8192x12, .f32⟩ : BufTy).Contents (Elt Ideal))
    (x3 : (⟨S1000000, .i32⟩ : BufTy).Contents (Elt Ideal)) (n : Fin 1000000) (j : Fin 12)
    (hb : (x3 (ix1 n)).toNat < 8192) :
    val_main_v9 (F := Ideal) x2 x3 (ix2 n j) = x2 (ix2 (rowOf x3 n) j) := by
  unfold val_main_v9
  rw [gather_apply]
  have hv : val_main_v8 (F := Ideal) x3 (Cert.LibTakeRows.rowIdx (ix2 n j)) = x3 (ix1 n) := by
    rw [val_main_v8_apply]
    have e : idx_main_v8 (Cert.LibTakeRows.rowIdx (ix2 n j)) = ix1 n :=
      funext fun t => Fin.ext (by match t with | ⟨0, _⟩ => rfl)
    rw [e, start_word x3 n hb]
  have h1 : (x3 (ix1 n)).toInt = ((x3 (ix1 n)).toNat : Int) := BitVec.toInt_eq_toNat_of_lt (by omega)
  refine congrArg x2 (funext fun t => ?_)
  match t with
  | ⟨0, _⟩ =>
    refine Fin.ext ?_
    show min (val_main_v8 (F := Ideal) x3 (Cert.LibTakeRows.rowIdx (ix2 n j))).toInt.toNat (8192 - 1)
      = (x3 (ix1 n)).toNat % 8192
    rw [hv, h1, Int.toNat_natCast]
    omega
  | ⟨1, _⟩ => rfl

/-! ## The relative coordinates -/

/-- The position repeated four times: entry (n, j) of the [1000000, 12] array is coordinate j % 3 of node n. -/
theorem pos_rep (x1 : (⟨S1000000x3, .f32⟩ : BufTy).Contents (Elt Ideal)) (n : Fin 1000000) (j : Fin 12) :
    val_main_v2 (F := Ideal) x1 (ix2 n j) = x1 (ix2 n ⟨j.val % 3, Nat.mod_lt _ (by decide)⟩) := by
  rw [val_main_v2_apply, val_main_v1_apply, val_main_v0_apply]
  refine congrArg x1 (funext fun t => Fin.ext ?_)
  have hn := n.isLt
  have hj := j.isLt
  match t with
  | ⟨0, _⟩ =>
    show (((0 * 1000000 + (n.val * 12 + j.val) / 12 % 1000000) * 1 + 0) * 3 + (n.val * 12 + j.val) % 3) / 3 = n.val
    omega
  | ⟨1, _⟩ =>
    show (((0 * 1000000 + (n.val * 12 + j.val) / 12 % 1000000) * 1 + 0) * 3 + (n.val * 12 + j.val) % 3) % 3 = j.val % 3
    omega

/-- Entry (n, j) of the difference is relative coordinate j of node n. -/
theorem rel_coords (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (j : Fin 12) (hb : (x3 (ix1 n)).toNat < 8192) :
    val_main_v10 (F := Ideal) x1 x2 x3 (ix2 n j) = relv x1 x2 x3 n j := by
  rw [val_main_v10_apply, pos_rep, gathered x2 x3 n j hb, Ideal.subf_def]
  rfl

/-- The [1000000, 4, 3] view: entry (n, a, d) is coordinate d of virtual node a. -/
theorem rel_split (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (a : Fin 4) (d : Fin 3) (hb : (x3 (ix1 n)).toNat < 8192) :
    val_main_v11 (F := Ideal) x1 x2 x3 (ix3 n a d) = relv x1 x2 x3 n (c3 a d) := by
  rw [val_main_v11_apply]
  have e : idx_main_v11 (ix3 n a d) = ix2 n (c3 a d) := funext fun t => Fin.ext (by
    have hn := n.isLt
    have ha := a.isLt
    have hd := d.isLt
    match t with
    | ⟨0, _⟩ => show ((n.val * 4 + a.val) * 3 + d.val) / 12 = n.val; omega
    | ⟨1, _⟩ => show ((n.val * 4 + a.val) * 3 + d.val) % 12 = 3 * a.val + d.val; omega)
  rw [e, rel_coords x1 x2 x3 n (c3 a d) hb]

/-! ## The distances -/

/-- Entry (n, a, b) of the sum over the three coordinates is the squared distance between virtual nodes a and b. -/
theorem sq_dist (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (a b : Fin 4) (hb : (x3 (ix1 n)).toNat < 8192) :
    val_main_v18 (F := Ideal) x1 x2 x3 (ix3 n a b) = sqd (relv x1 x2 x3 n) a b := by
  rw [val_main_v18_apply, val_main_cst_apply, Ideal.ofBits_def, Ideal.ofBits_zero_f32, zero_add]
  unfold sqd
  refine Finset.sum_congr rfl fun d _ => ?_
  rw [val_main_v17_apply, val_main_v16_apply, val_main_v14_apply, val_main_v15_apply, val_main_v12_apply,
    val_main_v13_apply]
  have e1 : idx_main_v12 (idx_main_v14 (idx_main_v18 (ix3 n a b) d)) = ix3 n a d :=
    funext fun t => Fin.ext (by match t with | ⟨0, _⟩ => rfl | ⟨1, _⟩ => rfl | ⟨2, _⟩ => rfl)
  have e2 : idx_main_v13 (idx_main_v15 (idx_main_v18 (ix3 n a b) d)) = ix3 n b d :=
    funext fun t => Fin.ext (by match t with | ⟨0, _⟩ => rfl | ⟨1, _⟩ => rfl | ⟨2, _⟩ => rfl)
  rw [e1, e2, rel_split x1 x2 x3 n a d hb, rel_split x1 x2 x3 n b d hb, Ideal.mulf_def, Ideal.subf_def]

/-- Entry (n, a, b) after the two selects around the root is the zero-safe root of the squared distance. -/
theorem safe_root (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (a b : Fin 4) (hb : (x3 (ix1 n)).toNat < 8192) :
    val_main_v23 (F := Ideal) x1 x2 x3 (ix3 n a b) = root0 (sqd (relv x1 x2 x3 n) a b) := by
  rw [val_main_v23_apply, val_main_v22_apply, val_main_v21_apply, val_main_v20_apply, val_main_v19_apply,
    val_main_cst_1_apply, val_main_call0_v1_apply, val_main_call0_v0_apply, val_main_cst_2_apply,
    val_main_call1_v1_apply, val_main_call1_v0_apply, val_main_cst_3_apply, sq_dist x1 x2 x3 n a b hb]
  rfl

/-- The [1000000, 16] view: entry (n, k) is the distance between virtual nodes k / 4 and k % 4. -/
theorem dist_feat (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (k : Fin 16) (hb : (x3 (ix1 n)).toNat < 8192) :
    val_main_v24 (F := Ideal) x1 x2 x3 (ix2 n k) = pd (relv x1 x2 x3 n) k := by
  rw [val_main_v24_apply]
  have e : idx_main_v24 (ix2 n k)
      = ix3 n (⟨k.val / 4, by have := k.isLt; omega⟩ : Fin 4) (⟨k.val % 4, Nat.mod_lt _ (by decide)⟩ : Fin 4) :=
    funext fun t => Fin.ext (by
      have hn := n.isLt
      have hk := k.isLt
      match t with
      | ⟨0, _⟩ => show (n.val * 16 + k.val) / 16 = n.val; omega
      | ⟨1, _⟩ => show (n.val * 16 + k.val) / 4 % 4 = k.val / 4; omega
      | ⟨2, _⟩ => show (n.val * 16 + k.val) % 4 = k.val % 4; omega)
  rw [e, safe_root x1 x2 x3 n _ _ hb]
  rfl

/-! ## The normalised features -/

/-- Entry (n, k) of the broadcast denominator is the norm of node n's sixteen distances plus the small constant. -/
theorem norm_bcast (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (k : Fin 16) (hb : (x3 (ix1 n)).toNat < 8192) :
    val_main_v28 (F := Ideal) x1 x2 x3 (ix2 n k) = nrm (relv x1 x2 x3 n) + epsW := by
  rw [val_main_v28_apply, val_main_v27_apply, val_main_v25_apply, val_main_call2_v2_apply, val_main_call2_v1_apply,
    val_main_call2_cst_apply, val_main_v26_apply, val_main_cst_4_apply, Ideal.ofBits_def, Ideal.ofBits_zero_f32,
    zero_add, Ideal.addf_def, Ideal.hostUnary_sqrt_def]
  unfold nrm
  refine congrArg (fun s => Ideal.sqrt s + epsW) (Finset.sum_congr rfl fun k' _ => ?_)
  rw [val_main_call2_v0_apply]
  have e : idx_main_call2_v1 (idx_main_call2_v2 (idx_main_v28 (ix2 n k))) k' = ix2 n k' :=
    funext fun t => Fin.ext (by match t with | ⟨0, _⟩ => rfl | ⟨1, _⟩ => rfl)
  rw [e, dist_feat x1 x2 x3 n k' hb, Ideal.mulf_def]

/-- Entry (n, k) of the quotient is normalised feature k of node n. -/
theorem feat_eq (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (n : Fin 1000000) (k : Fin 16) (hb : (x3 (ix1 n)).toNat < 8192) :
    val_main_v29 (F := Ideal) x1 x2 x3 (ix2 n k) = feat (relv x1 x2 x3 n) k := by
  rw [val_main_v29_apply, dist_feat x1 x2 x3 n k hb, norm_bcast x1 x2 x3 n k hb, Ideal.hostDivf_def]
  rfl

/-! ## The two layers -/

/-- Entry (n, o) of the first layer: the features against row o of the first weight, plus the bias. -/
theorem hidden_eq (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (x4 : (⟨S64x16, .f32⟩ : BufTy).Contents (Elt Ideal)) (x5 : (⟨S64, .f32⟩ : BufTy).Contents (Elt Ideal))
    (n : Fin 1000000) (o : Fin 64) (hb : (x3 (ix1 n)).toNat < 8192) :
    val_main_v34 (F := Ideal) x1 x2 x3 x4 x5 (ix2 n o)
      = hid (relv x1 x2 x3 n) (fun k o => x4 (ix2 o k)) (fun o => x5 (ix1 o)) o := by
  rw [val_main_v34_apply, val_main_v31_apply, val_main_v33_apply, val_main_v32_apply, Ideal.addf_def]
  unfold hid
  have eb : idx_main_v32 (idx_main_v33 (ix2 n o)) = ix1 o :=
    funext fun t => Fin.ext (by match t with | ⟨0, _⟩ => rfl)
  rw [eb]
  refine congrArg (· + x5 (ix1 o)) (Finset.sum_congr rfl fun k _ => ?_)
  rw [val_main_v30_apply]
  have el : lidx_main_v31 (ix2 n o) k = ix2 n k :=
    funext fun t => Fin.ext (by match t with | ⟨0, _⟩ => rfl | ⟨1, _⟩ => rfl)
  have er : idx_main_v30 (ridx_main_v31 (ix2 n o) k) = ix2 o k :=
    funext fun t => Fin.ext (by match t with | ⟨0, _⟩ => rfl | ⟨1, _⟩ => rfl)
  rw [el, er, feat_eq x1 x2 x3 n k hb]

/-- The word 0x3F800000 denotes 1: sign 0, exponent field 127 (the bias), significand field 0. -/
theorem one_word : Ideal.ofBits .f32 0x3F800000#32 = 1 := by
  simp [Ideal.ofBits, Ideal.ieee, -EReal.coe_mul]
  norm_num

/-- Entry (n, o) after the activation, written out as x * (1 / (1 + exp (-x))), is x * logistic x. -/
theorem act_eq (x1 : (⟨S1000000x3, .f32⟩ : BufTy).Contents (Elt Ideal))
    (x2 : (⟨S8192x12, .f32⟩ : BufTy).Contents (Elt Ideal)) (x3 : (⟨S1000000, .i32⟩ : BufTy).Contents (Elt Ideal))
    (x4 : (⟨S64x16, .f32⟩ : BufTy).Contents (Elt Ideal)) (x5 : (⟨S64, .f32⟩ : BufTy).Contents (Elt Ideal))
    (n : Fin 1000000) (o : Fin 64) (hb : (x3 (ix1 n)).toNat < 8192) :
    val_main_v35 (F := Ideal) x1 x2 x3 x4 x5 (ix2 n o)
      = act (hid (relv x1 x2 x3 n) (fun k o => x4 (ix2 o k)) (fun o => x5 (ix1 o)) o) := by
  rw [val_main_v35_apply, val_main_call3_v5_apply, val_main_call3_v4_apply, val_main_call3_cst_0_apply,
    val_main_call3_v3_apply, val_main_call3_v2_apply, val_main_call3_cst_apply, val_main_call3_v1_apply,
    val_main_call3_v0_apply, hidden_eq x1 x2 x3 x4 x5 n o hb, Ideal.ofBits_def, one_word, Ideal.mulf_def,
    Ideal.hostDivf_def, Ideal.addf_def, Ideal.hostUnary_exp_def, Ideal.hostNegf_def, Ideal.negf_def]
  rfl

/-! ## The result -/

theorem ref_eq (x1 : (⟨S1000000x3, .f32⟩ : BufTy).Contents (Elt Ideal)) (x2 : (⟨S8192x12, .f32⟩ : BufTy).Contents (Elt Ideal))
    (x3 : (⟨S1000000, .i32⟩ : BufTy).Contents (Elt Ideal)) (x4 : (⟨S64x16, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal))
    (hb : ∀ n : Fin 1000000, (x3 (ix1 n)).toNat < 8192) :
    Cert.ReferenceIdeal.Read.val_main_v40 (F := Ideal) x1 x2 x3 x4 x5 x6 x7 = Cert.VnFeat.G x1 x2 x3 x4 x5 x6 x7 := by
  funext i
  obtain ⟨n, p, rfl⟩ : ∃ (n : Fin 1000000) (p : Fin 64), i = ix2 n p := ⟨i 0, i 1, eq_ix2 i⟩
  rw [G_apply, val_main_v40_apply, val_main_v37_apply, val_main_v39_apply, val_main_v38_apply, Ideal.addf_def]
  unfold outRow
  have eb : idx_main_v38 (idx_main_v39 (ix2 n p)) = ix1 p :=
    funext fun t => Fin.ext (by match t with | ⟨0, _⟩ => rfl)
  rw [eb]
  refine congrArg (· + x7 (ix1 p)) (Finset.sum_congr rfl fun o _ => ?_)
  rw [val_main_v36_apply]
  have el : lidx_main_v37 (ix2 n p) o = ix2 n o :=
    funext fun t => Fin.ext (by match t with | ⟨0, _⟩ => rfl | ⟨1, _⟩ => rfl)
  have er : idx_main_v36 (ridx_main_v37 (ix2 n p) o) = ix2 p o :=
    funext fun t => Fin.ext (by match t with | ⟨0, _⟩ => rfl | ⟨1, _⟩ => rfl)
  rw [el, er, act_eq x1 x2 x3 x4 x5 n o (hb n)]

end Cert.ReferenceIdeal.RefValue

end
-- ==== Proof.lean ====
/-
  The certificate's claims.

  Both programs compute, for each of the 1000000 nodes, a 64-vector from the node's position and the row of the
  group table its batch word names: the 16 pairwise distances between the node's four relative vectors (zero-safe
  roots), normalised by their Euclidean norm plus a constant, through a two-layer perceptron with the activation
  x * logistic x.  The kernel selects the group row by a one-hot product summed over 32 chunks of the table and works
  on 250 blocks of 4000 rows; the reference gathers the row directly.  Both are the one function Cert.VnFeat.G of
  the argument arrays (KernelArray.lean for the kernel's result array, RefValue.lean for the reference's), where every
  batch word names a row of the table, which is what the precondition's last conjunct says (BatchRange.lean).
  The frames are the generated ones; the idealization rewrote nothing, so preserves is trivial.
-/
import proofs.«401669_j7885559956062_3_alg».proof.Defs
import proofs.«401669_j7885559956062_3_alg».proof.Proof.Gen.Kernel
import proofs.«401669_j7885559956062_3_alg».proof.Proof.Gen.Kernel.Skeleton
import proofs.«401669_j7885559956062_3_alg».proof.Proof.Gen.Kernel.Loops
import proofs.«401669_j7885559956062_3_alg».proof.Proof.Gen.Kernel.Launch
import proofs.«401669_j7885559956062_3_alg».proof.Proof.Gen.Kernel.Points
import proofs.«401669_j7885559956062_3_alg».proof.Proof.Gen.Kernel.Frame
import proofs.«401669_j7885559956062_3_alg».proof.Proof.Gen.KernelIdeal
import proofs.«401669_j7885559956062_3_alg».proof.Proof.Gen.KernelIdeal.Skeleton
import proofs.«401669_j7885559956062_3_alg».proof.Proof.Gen.KernelIdeal.Loops
import proofs.«401669_j7885559956062_3_alg».proof.Proof.Gen.KernelIdeal.Launch
import proofs.«401669_j7885559956062_3_alg».proof.Proof.Gen.KernelIdeal.Points
import proofs.«401669_j7885559956062_3_alg».proof.Proof.Gen.KernelIdeal.Frame
import proofs.«401669_j7885559956062_3_alg».proof.Proof.Gen.ReferenceIdeal
import proofs.«401669_j7885559956062_3_alg».proof.Proof.Gen.Pre_finite_inputs
import proofs.«401669_j7885559956062_3_alg».proof.Proof.Gen.KernelIdeal.Value
import proofs.«401669_j7885559956062_3_alg».proof.Proof.Gen.ReferenceIdeal.Run
import proofs.«401669_j7885559956062_3_alg».proof.Proof.Gen.ReferenceIdeal.Read
import proofs.«401669_j7885559956062_3_alg».proof.Proof.BatchRange
import proofs.«401669_j7885559956062_3_alg».proof.Proof.KernelArray
import proofs.«401669_j7885559956062_3_alg».proof.Proof.RefValue
import Idealize.ShloMosaic.Adequacy
import Idealize.ShloMosaic.Init

noncomputable section

namespace Cert.Proof

open Idealize.ShloMosaic Idealize.SL.Sem Idealize.ShloMosaic.ValueIdx

/-- Under the precondition every batch word, read unsigned, is below 8192. -/
theorem words_in_range (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 1000000) :
    (m ((c.tc : Thread Cert.KernelIdeal.nD Cert.KernelIdeal.τ).loc Cert.KernelIdeal.main_arg3) (ix1 n)).toNat < 8192 :=
  Cert.BatchRange.range_of_pre _ _ _ _ _ _ _ _ (hpre c) n

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specified function of the arguments in their
    result arrays. -/
theorem algebraic : Cert.algebraic_KernelIdeal_ReferenceIdeal := by
  intro m ρ m' ρ' hpre hagree
  have hb := words_in_range m hpre
  refine ⟨fun c => Cert.KernelIdeal.RowValue.Garr m c, Cert.KernelIdeal.RowValue.run m ρ hb, ?_⟩
  refine (θ_run Cert.ReferenceIdeal.defs _ _).mono (fun _ h c => ⟨(h c).1.trans ?_, (h c).2⟩)
    (Cert.ReferenceIdeal.Value.run (F := Ideal) m' ρ')
  obtain ⟨-, a1, a2, a3, a4, a5, a6, a7⟩ := hagree c
  rw [Cert.ReferenceIdeal.Read.val_main_v40_eq,
    Cert.ReferenceIdeal.RefValue.ref_eq _ _ _ _ _ _ _ (by rw [a3]; exact hb c)]
  show Cert.VnFeat.G _ _ _ _ _ _ _ = Cert.VnFeat.G _ _ _ _ _ _ _
  rw [a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
